-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x160 : Shape := ⟨2, ![262144, 160]⟩
abbrev S3x15 : Shape := ⟨2, ![3, 15]⟩
abbrev S3 : Shape := ⟨1, ![3]⟩
abbrev S25x15 : Shape := ⟨2, ![25, 15]⟩
abbrev S25x3 : Shape := ⟨2, ![25, 3]⟩
abbrev S_ : Shape := ⟨0, ![]⟩

class Facts : Prop where
  bcast_S_S262144x160 : S_.BroadcastsInDim S262144x160 (![] : Fin 0 → Fin S262144x160.rank)
  reducesTo_S262144x160_S_d0_1 : S262144x160.ReducesTo [0, 1] S_
  h_S_ : 0 < S_.numel
  bcast_S_S3x15 : S_.BroadcastsInDim S3x15 (![] : Fin 0 → Fin S3x15.rank)
  reducesTo_S3x15_S_d0_1 : S3x15.ReducesTo [0, 1] S_
  bcast_S_S3 : S_.BroadcastsInDim S3 (![] : Fin 0 → Fin S3.rank)
  reducesTo_S3_S_d0 : S3.ReducesTo [0] S_
  bcast_S_S25x15 : S_.BroadcastsInDim S25x15 (![] : Fin 0 → Fin S25x15.rank)
  reducesTo_S25x15_S_d0_1 : S25x15.ReducesTo [0, 1] S_
  bcast_S_S25x3 : S_.BroadcastsInDim S25x3 (![] : Fin 0 → Fin S25x3.rank)
  reducesTo_S25x3_S_d0_1 : S25x3.ReducesTo [0, 1] S_

variable [Facts]

def fn_part1 {F : FTy → Type} [FloatOps F] (main_arg3 : IVec S25x15 32) (main_arg4 : IVec S25x3 32) (main_v13 : IVec S_ 1) (main_v15 : IVec S25x15 1) (main_c_5 : IVec S_ 32) : IVec S_ 1 :=
  let main_v16 : IVec S25x15 32 := broadcastInDim S25x15 ![] bcast_S_S25x15 main_c_5
  let main_v17 : IVec S25x15 1 := cmpi .slt main_arg3 main_v16
  let main_v18 : IVec S25x15 1 := andi main_v15 main_v17
  let main_c_6 : IVec S_ 1 := constantI S_ 1 1#1
  let main_v19 : IVec S_ 1 := (fun x v => Host.reduce IntOp.andi x v reducesTo_S25x15_S_d0_1 h_S_) main_v18 main_c_6
  let main_v20 : IVec S_ 1 := andi main_v13 main_v19
  let main_c_7 : IVec S_ 32 := constantI S_ 32 0#32
  let main_v21 : IVec S25x3 32 := broadcastInDim S25x3 ![] bcast_S_S25x3 main_c_7
  let main_v22 : IVec S25x3 1 := cmpi .sge main_arg4 main_v21
  let main_c_8 : IVec S_ 32 := constantI S_ 32 75#32
  let main_v23 : IVec S25x3 32 := broadcastInDim S25x3 ![] bcast_S_S25x3 main_c_8
  let main_v24 : IVec S25x3 1 := cmpi .slt main_arg4 main_v23
  let main_v25 : IVec S25x3 1 := andi main_v22 main_v24
  let main_c_9 : IVec S_ 1 := constantI S_ 1 1#1
  let main_v26 : IVec S_ 1 := (fun x v => Host.reduce IntOp.andi x v reducesTo_S25x3_S_d0_1 h_S_) main_v25 main_c_9
  let main_v27 : IVec S_ 1 := andi main_v20 main_v26
  main_v27

def fn {F : FTy → Type} [FloatOps F] (main_arg0 : FVec F S262144x160 .f32) (main_arg1 : FVec F S3x15 .f32) (main_arg2 : FVec F S3 .f32) (main_arg3 : IVec S25x15 32) (main_arg4 : IVec S25x3 32) : IVec S_ 1 :=
  let main_v0 : FVec F S262144x160 .f32 := Host.absf main_arg0
  let main_cst : FVec F S_ .f32 := constant S_ .f32 0x7F800000#32
  let main_v1 : FVec F S262144x160 .f32 := broadcastInDim S262144x160 ![] bcast_S_S262144x160 main_cst
  let main_v2 : IVec S262144x160 1 := cmpf .olt main_v0 main_v1
  let main_c : IVec S_ 1 := constantI S_ 1 1#1
  let main_v3 : IVec S_ 1 := (fun x v => Host.reduce IntOp.andi x v reducesTo_S262144x160_S_d0_1 h_S_) main_v2 main_c
  let main_v4 : FVec F S3x15 .f32 := Host.absf main_arg1
  let main_cst_0 : FVec F S_ .f32 := constant S_ .f32 0x7F800000#32
  let main_v5 : FVec F S3x15 .f32 := broadcastInDim S3x15 ![] bcast_S_S3x15 main_cst_0
  let main_v6 : IVec S3x15 1 := cmpf .olt main_v4 main_v5
  let main_c_1 : IVec S_ 1 := constantI S_ 1 1#1
  let main_v7 : IVec S_ 1 := (fun x v => Host.reduce IntOp.andi x v reducesTo_S3x15_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_c_4 : IVec S_ 32 := constantI S_ 32 0#32
  let main_v14 : IVec S25x15 32 := broadcastInDim S25x15 ![] bcast_S_S25x15 main_c_4
  let main_v15 : IVec S25x15 1 := cmpi .sge main_arg3 main_v14
  let main_c_5 : IVec S_ 32 := constantI S_ 32 160#32
  fn_part1 (F := F) main_arg3 main_arg4 main_v13 main_v15 main_c_5
-- ==== Kernel.lean ====
abbrev S262144x160 : Shape := ⟨2, ![262144, 160]⟩
abbrev S3x15 : Shape := ⟨2, ![3, 15]⟩
abbrev S3 : Shape := ⟨1, ![3]⟩
abbrev S25x15 : Shape := ⟨2, ![25, 15]⟩
abbrev S25x3 : Shape := ⟨2, ![25, 3]⟩
abbrev S375 : Shape := ⟨1, ![375]⟩
abbrev S160 : Shape := ⟨1, ![160]⟩
abbrev S160x1 : Shape := ⟨2, ![160, 1]⟩
abbrev S1x375 : Shape := ⟨2, ![1, 375]⟩
abbrev S160x375 : Shape := ⟨2, ![160, 375]⟩
abbrev S25x25 : Shape := ⟨2, ![25, 25]⟩
abbrev S_ : Shape := ⟨0, ![]⟩
abbrev S15x3 : Shape := ⟨2, ![15, 3]⟩
abbrev S25x1x25x1 : Shape := ⟨4, ![25, 1, 25, 1]⟩
abbrev S1x15x1x3 : Shape := ⟨4, ![1, 15, 1, 3]⟩
abbrev S25x15x25x3 : Shape := ⟨4, ![25, 15, 25, 3]⟩
abbrev S375x75 : Shape := ⟨2, ![375, 75]⟩
abbrev S75 : Shape := ⟨1, ![75]⟩
abbrev S75x1 : Shape := ⟨2, ![75, 1]⟩
abbrev S1x75 : Shape := ⟨2, ![1, 75]⟩
abbrev S75x75 : Shape := ⟨2, ![75, 75]⟩
abbrev S160x75 : Shape := ⟨2, ![160, 75]⟩
abbrev S1x3 : Shape := ⟨2, ![1, 3]⟩
abbrev S262144x75 : Shape := ⟨2, ![262144, 75]⟩
abbrev S8192x160 : Shape := ⟨2, ![8192, 160]⟩
abbrev S8192x75 : Shape := ⟨2, ![8192, 75]⟩

abbrev nBuf : Space → Nat
  | .hbm => 58
  | .vmem => 6
  | .smem => 0
  | _ => 0

abbrev bufTy : (tb : Table) → Fin (tcTables nBuf tb) → BufTy
  | .hbm, ⟨0, _⟩ => ⟨S262144x160, .f32⟩
  | .hbm, ⟨1, _⟩ => ⟨S3x15, .f32⟩
  | .hbm, ⟨2, _⟩ => ⟨S3, .f32⟩
  | .hbm, ⟨3, _⟩ => ⟨S25x15, .i32⟩
  | .hbm, ⟨4, _⟩ => ⟨S25x3, .i32⟩
  | .hbm, ⟨5, _⟩ => ⟨S375, .i32⟩
  | .hbm, ⟨6, _⟩ => ⟨S160, .i32⟩
  | .hbm, ⟨7, _⟩ => ⟨S160x1, .i32⟩
  | .hbm, ⟨8, _⟩ => ⟨S1x375, .i32⟩
  | .hbm, ⟨9, _⟩ => ⟨S160x375, .i32⟩
  | .hbm, ⟨10, _⟩ => ⟨S160x375, .i32⟩
  | .hbm, ⟨11, _⟩ => ⟨S160x375, .i1⟩
  | .hbm, ⟨12, _⟩ => ⟨S160x375, .f32⟩
  | .hbm, ⟨13, _⟩ => ⟨S25x25, .i32⟩
  | .hbm, ⟨14, _⟩ => ⟨S25x25, .i32⟩
  | .hbm, ⟨15, _⟩ => ⟨S_, .i32⟩
  | .hbm, ⟨16, _⟩ => ⟨S25x25, .i32⟩
  | .hbm, ⟨17, _⟩ => ⟨S25x25, .i32⟩
  | .hbm, ⟨18, _⟩ => ⟨S25x25, .i1⟩
  | .hbm, ⟨19, _⟩ => ⟨S25x25, .f32⟩
  | .hbm, ⟨20, _⟩ => ⟨S15x3, .f32⟩
  | .hbm, ⟨21, _⟩ => ⟨S25x1x25x1, .f32⟩
  | .hbm, ⟨22, _⟩ => ⟨S1x15x1x3, .f32⟩
  | .hbm, ⟨23, _⟩ => ⟨S25x15x25x3, .f32⟩
  | .hbm, ⟨24, _⟩ => ⟨S25x15x25x3, .f32⟩
  | .hbm, ⟨25, _⟩ => ⟨S25x15x25x3, .f32⟩
  | .hbm, ⟨26, _⟩ => ⟨S375x75, .f32⟩
  | .hbm, ⟨27, _⟩ => ⟨S75, .i32⟩
  | .hbm, ⟨28, _⟩ => ⟨S75, .i32⟩
  | .hbm, ⟨29, _⟩ => ⟨S75, .i32⟩
  | .hbm, ⟨30, _⟩ => ⟨S75x1, .i32⟩
  | .hbm, ⟨31, _⟩ => ⟨S75x1, .i32⟩
  | .hbm, ⟨32, _⟩ => ⟨S1x75, .i32⟩
  | .hbm, ⟨33, _⟩ => ⟨S75x75, .i32⟩
  | .hbm, ⟨34, _⟩ => ⟨S75x75, .i32⟩
  | .hbm, ⟨35, _⟩ => ⟨S75x75, .i1⟩
  | .hbm, ⟨36, _⟩ => ⟨S_, .i32⟩
  | .hbm, ⟨37, _⟩ => ⟨S75x75, .i32⟩
  | .hbm, ⟨38, _⟩ => ⟨S75x75, .i32⟩
  | .hbm, ⟨39, _⟩ => ⟨S75x75, .i32⟩
  | .hbm, ⟨40, _⟩ => ⟨S_, .i32⟩
  | .hbm, ⟨41, _⟩ => ⟨S75, .i32⟩
  | .hbm, ⟨42, _⟩ => ⟨S1x75, .i32⟩
  | .hbm, ⟨43, _⟩ => ⟨S75x75, .i32⟩
  | .hbm, ⟨44, _⟩ => ⟨S75x75, .i32⟩
  | .hbm, ⟨45, _⟩ => ⟨S75x75, .i1⟩
  | .hbm, ⟨46, _⟩ => ⟨S75x75, .i1⟩
  | .hbm, ⟨47, _⟩ => ⟨S75x75, .f32⟩
  | .hbm, ⟨48, _⟩ => ⟨S375x75, .f32⟩
  | .hbm, ⟨49, _⟩ => ⟨S160x75, .f32⟩
  | .hbm, ⟨50, _⟩ => ⟨S1x3, .f32⟩
  | .hbm, ⟨51, _⟩ => ⟨S25x3, .f32⟩
  | .hbm, ⟨52, _⟩ => ⟨S75, .f32⟩
  | .hbm, ⟨53, _⟩ => ⟨S1x75, .f32⟩
  | .hbm, ⟨54, _⟩ => ⟨S1x75, .f32⟩
  | .hbm, ⟨55, _⟩ => ⟨S75, .f32⟩
  | .hbm, ⟨56, _⟩ => ⟨S1x75, .f32⟩
  | .hbm, ⟨57, _⟩ => ⟨S262144x75, .f32⟩
  | .local _ .vmem, ⟨0, _⟩ => ⟨S8192x160, .f32⟩
  | .local _ .vmem, ⟨1, _⟩ => ⟨S8192x160, .f32⟩
  | .local _ .vmem, ⟨2, _⟩ => ⟨S160x75, .f32⟩
  | .local _ .vmem, ⟨3, _⟩ => ⟨S1x75, .f32⟩
  | .local _ .vmem, ⟨4, _⟩ => ⟨S8192x75, .f32⟩
  | .local _ .vmem, ⟨5, _⟩ => ⟨S8192x75, .f32⟩
  | _, _ => ⟨S262144x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_c : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_v24 : Ref sig .tc := ⟨.hbm, 30, rfl⟩
abbrev main_call0_v25 : Ref sig .tc := ⟨.hbm, 31, rfl⟩
abbrev main_call0_v26 : Ref sig .tc := ⟨.hbm, 32, rfl⟩
abbrev main_call0_v27 : Ref sig .tc := ⟨.hbm, 33, rfl⟩
abbrev main_call0_v28 : Ref sig .tc := ⟨.hbm, 34, rfl⟩
abbrev main_call0_v29 : Ref sig .tc := ⟨.hbm, 35, rfl⟩
abbrev main_call0_c_0 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_v30 : Ref sig .tc := ⟨.hbm, 39, rfl⟩
abbrev main_call0_c_1 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_v46 : Ref sig .tc := ⟨.hbm, 56, rfl⟩
abbrev main_v0 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x75 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S25x15_S375 : S25x15.ShapeCasts S375
  bcast_S160_S160x1_0 : S160.BroadcastsInDim S160x1 (![0] : Fin 1 → Fin S160x1.rank)
  bcast_S375_S1x375_1 : S375.BroadcastsInDim S1x375 (![1] : Fin 1 → Fin S1x375.rank)
  bcast_S160x1_S160x375_0_1 : S160x1.BroadcastsInDim S160x375 (![0, 1] : Fin 2 → Fin S160x375.rank)
  bcast_S1x375_S160x375_0_1 : S1x375.BroadcastsInDim S160x375 (![0, 1] : Fin 2 → Fin S160x375.rank)
  bcast_S_S25x25 : S_.BroadcastsInDim S25x25 (![] : Fin 0 → Fin S25x25.rank)
  transposes_S3x15_S15x3_1_0 : S3x15.Transposes [1, 0] S15x3
  bcast_S25x25_S25x1x25x1_0_2 : S25x25.BroadcastsInDim S25x1x25x1 (![0, 2] : Fin 2 → Fin S25x1x25x1.rank)
  bcast_S15x3_S1x15x1x3_1_3 : S15x3.BroadcastsInDim S1x15x1x3 (![1, 3] : Fin 2 → Fin S1x15x1x3.rank)
  bcast_S25x1x25x1_S25x15x25x3_0_1_2_3 : S25x1x25x1.BroadcastsInDim S25x15x25x3 (![0, 1, 2, 3] : Fin 4 → Fin S25x15x25x3.rank)
  bcast_S1x15x1x3_S25x15x25x3_0_1_2_3 : S1x15x1x3.BroadcastsInDim S25x15x25x3 (![0, 1, 2, 3] : Fin 4 → Fin S25x15x25x3.rank)
  shapeCasts_S25x15x25x3_S375x75 : S25x15x25x3.ShapeCasts S375x75
  shapeCasts_S25x3_S75 : S25x3.ShapeCasts S75
  bcast_S75_S75x1_0 : S75.BroadcastsInDim S75x1 (![0] : Fin 1 → Fin S75x1.rank)
  bcast_S75_S1x75_1 : S75.BroadcastsInDim S1x75 (![1] : Fin 1 → Fin S1x75.rank)
  bcast_S75x1_S75x75_0_1 : S75x1.BroadcastsInDim S75x75 (![0, 1] : Fin 2 → Fin S75x75.rank)
  bcast_S1x75_S75x75_0_1 : S1x75.BroadcastsInDim S75x75 (![0, 1] : Fin 2 → Fin S75x75.rank)
  bcast_S_S75x75 : S_.BroadcastsInDim S75x75 (![] : Fin 0 → Fin S75x75.rank)
  reducesTo_S75x75_S75_d0 : S75x75.ReducesTo [0] S75
  h_S_ : 0 < S_.numel
  shapeCasts_S3_S1x3 : S3.ShapeCasts S1x3
  bcast_S1x3_S25x3_0_1 : S1x3.BroadcastsInDim S25x3 (![0, 1] : Fin 2 → Fin S25x3.rank)
  shapeCasts_S1x75_S75 : S1x75.ShapeCasts S75
  shapeCasts_S75_S1x75 : S75.ShapeCasts S1x75
  inb_S8192x160_S8192x160_0_0 : ∀ a, (![0, 0] : Fin 2 → Nat) a + S8192x160.size a ≤ S8192x160.size a
  h_S8192x160 : 0 < S8192x160.numel
  inb_S160x75_S160x75_0_0 : ∀ a, (![0, 0] : Fin 2 → Nat) a + S160x75.size a ≤ S160x75.size a
  h_S160x75 : 0 < S160x75.numel
  shapeCasts_S160x75_S160x75 : S160x75.ShapeCasts S160x75
  inb_S1x75_S1x75_0_0 : ∀ a, (![0, 0] : Fin 2 → Nat) a + S1x75.size a ≤ S1x75.size a
  h_S1x75 : 0 < S1x75.numel
  shapeCasts_S1x75_S1x75 : S1x75.ShapeCasts S1x75
  broadcasts_S1x75_S8192x75 : S1x75.Broadcasts S8192x75
  inb_S8192x75_S8192x75_0_0 : ∀ a, (![0, 0] : Fin 2 → Nat) a + S8192x75.size a ≤ S8192x75.size a
  h_S8192x75 : 0 < S8192x75.numel
  dot_S375x75_S75x75_S375x75_1_0_0_1_n_n_wf : DotDims.WF S375x75 S75x75 S375x75 [1] [0] [0] [1] [] []
  dot_S160x375_S375x75_S160x75_1_0_0_1_n_n_wf : DotDims.WF S160x375 S375x75 S160x75 [1] [0] [0] [1] [] []
  dot_S1x75_S75x75_S1x75_1_0_0_1_n_n_wf : DotDims.WF S1x75 S75x75 S1x75 [1] [0] [0] [1] [] []
  dot_S8192x160_S160x75_S8192x75_1_0_0_1_n_n_wf : DotDims.WF S8192x160 S160x75 S8192x75 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x160.size a ≤ S262144x160.size a
  hwx0_0 : ∀ i : grid0.Coords, EltTy.bits .f32 = 32 ∨ (Rect.block (s := S262144x160) S8192x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x75.size a ≤ S160x75.size a
  hwx0_1 : ∀ i : grid0.Coords, EltTy.bits .f32 = 32 ∨ (Rect.block (s := S160x75) S160x75.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x75.size a ≤ S1x75.size a
  hwx0_2 : ∀ i : grid0.Coords, EltTy.bits .f32 = 32 ∨ (Rect.block (s := S1x75) S1x75.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x75.size a ≤ S262144x75.size a
  hwx0_3 : ∀ i : grid0.Coords, EltTy.bits .f32 = 32 ∨ (Rect.block (s := S262144x75) S8192x75.size (cc0_transform_3 i) (hinb0_3 i)).WholeWords (EltTy.packing .f32)

variable [Facts₀]

def dot_S375x75_S75x75_S375x75_1_0_0_1_n_n : DotDims S375x75 S75x75 S375x75 where
  lhsContracting := [1]
  rhsContracting := [0]
  lhsNonContracting := [0]
  rhsNonContracting := [1]
  lhsBatch := []
  rhsBatch := []
  wf := dot_S375x75_S75x75_S375x75_1_0_0_1_n_n_wf
def dot_S160x375_S375x75_S160x75_1_0_0_1_n_n : DotDims S160x375 S375x75 S160x75 where
  lhsContracting := [1]
  rhsContracting := [0]
  lhsNonContracting := [0]
  rhsNonContracting := [1]
  lhsBatch := []
  rhsBatch := []
  wf := dot_S160x375_S375x75_S160x75_1_0_0_1_n_n_wf
def dot_S1x75_S75x75_S1x75_1_0_0_1_n_n : DotDims S1x75 S75x75 S1x75 where
  lhsContracting := [1]
  rhsContracting := [0]
  lhsNonContracting := [0]
  rhsNonContracting := [1]
  lhsBatch := []
  rhsBatch := []
  wf := dot_S1x75_S75x75_S1x75_1_0_0_1_n_n_wf
def dot_S8192x160_S160x75_S8192x75_1_0_0_1_n_n : DotDims S8192x160 S160x75 S8192x75 where
  lhsContracting := [1]
  rhsContracting := [0]
  lhsNonContracting := [0]
  rhsNonContracting := [1]
  lhsBatch := []
  rhsBatch := []
  wf := dot_S8192x160_S160x75_S8192x75_1_0_0_1_n_n_wf

abbrev win0_0 : Pipeline.Window sig grid0 :=
  Pipeline.Window.ofSpec (Memref.whole main_arg0) S8192x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v39) S160x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v46) S1x75.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x75.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x160 : Shape := ⟨2, ![262144, 160]⟩
abbrev S3x15 : Shape := ⟨2, ![3, 15]⟩
abbrev S3 : Shape := ⟨1, ![3]⟩
abbrev S25x15 : Shape := ⟨2, ![25, 15]⟩
abbrev S25x3 : Shape := ⟨2, ![25, 3]⟩
abbrev S_ : Shape := ⟨0, ![]⟩
abbrev S25x15x1 : Shape := ⟨3, ![25, 15, 1]⟩
abbrev S262144x25x15 : Shape := ⟨3, ![262144, 25, 15]⟩
abbrev S262144x25x3 : Shape := ⟨3, ![262144, 25, 3]⟩
abbrev S1x1x3 : Shape := ⟨3, ![1, 1, 3]⟩
abbrev S262144x75 : Shape := ⟨2, ![262144, 75]⟩
abbrev S75 : Shape := ⟨1, ![75]⟩
abbrev S75x1 : Shape := ⟨2, ![75, 1]⟩

abbrev nBuf : Space → Nat
  | .hbm => 31
  | .vmem => 0
  | .smem => 0
  | _ => 0

abbrev bufTy : (tb : Table) → Fin (tcTables nBuf tb) → BufTy
  | .hbm, ⟨0, _⟩ => ⟨S262144x160, .f32⟩
  | .hbm, ⟨1, _⟩ => ⟨S3x15, .f32⟩
  | .hbm, ⟨2, _⟩ => ⟨S3, .f32⟩
  | .hbm, ⟨3, _⟩ => ⟨S25x15, .i32⟩
  | .hbm, ⟨4, _⟩ => ⟨S25x3, .i32⟩
  | .hbm, ⟨5, _⟩ => ⟨S_, .i32⟩
  | .hbm, ⟨6, _⟩ => ⟨S25x15, .i32⟩
  | .hbm, ⟨7, _⟩ => ⟨S25x15, .i1⟩
  | .hbm, ⟨8, _⟩ => ⟨S_, .i32⟩
  | .hbm, ⟨9, _⟩ => ⟨S25x15, .i32⟩
  | .hbm, ⟨10, _⟩ => ⟨S25x15, .i32⟩
  | .hbm, ⟨11, _⟩ => ⟨S25x15, .i32⟩
  | .hbm, ⟨12, _⟩ => ⟨S25x15x1, .i32⟩
  | .hbm, ⟨13, _⟩ => ⟨S262144x25x15, .f32⟩
  | .hbm, ⟨14, _⟩ => ⟨S262144x25x3, .f32⟩
  | .hbm, ⟨15, _⟩ => ⟨S1x1x3, .f32⟩
  | .hbm, ⟨16, _⟩ => ⟨S262144x25x3, .f32⟩
  | .hbm, ⟨17, _⟩ => ⟨S262144x25x3, .f32⟩
  | .hbm, ⟨18, _⟩ => ⟨S_, .f32⟩
  | .hbm, ⟨19, _⟩ => ⟨S262144x75, .f32⟩
  | .hbm, ⟨20, _⟩ => ⟨S75, .i32⟩
  | .hbm, ⟨21, _⟩ => ⟨S262144x75, .f32⟩
  | .hbm, ⟨22, _⟩ => ⟨S_, .i32⟩
  | .hbm, ⟨23, _⟩ => ⟨S75, .i32⟩
  | .hbm, ⟨24, _⟩ => ⟨S75, .i1⟩
  | .hbm, ⟨25, _⟩ => ⟨S_, .i32⟩
  | .hbm, ⟨26, _⟩ => ⟨S75, .i32⟩
  | .hbm, ⟨27, _⟩ => ⟨S75, .i32⟩
  | .hbm, ⟨28, _⟩ => ⟨S75, .i32⟩
  | .hbm, ⟨29, _⟩ => ⟨S75x1, .i32⟩
  | .hbm, ⟨30, _⟩ => ⟨S262144x75, .f32⟩
  | _, _ => ⟨S262144x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S25x15 : S_.BroadcastsInDim S25x15 (![] : Fin 0 → Fin S25x15.rank)
  bcast_S25x15_S25x15x1_0_1 : S25x15.BroadcastsInDim S25x15x1 (![0, 1] : Fin 2 → Fin S25x15x1.rank)
  bcast_S3_S1x1x3_2 : S3.BroadcastsInDim S1x1x3 (![2] : Fin 1 → Fin S1x1x3.rank)
  bcast_S1x1x3_S262144x25x3_0_1_2 : S1x1x3.BroadcastsInDim S262144x25x3 (![0, 1, 2] : Fin 3 → Fin S262144x25x3.rank)
  bcast_S_S262144x75 : S_.BroadcastsInDim S262144x75 (![] : Fin 0 → Fin S262144x75.rank)
  shapeCasts_S25x3_S75 : S25x3.ShapeCasts S75
  shapeCasts_S262144x25x3_S262144x75 : S262144x25x3.ShapeCasts S262144x75
  bcast_S_S75 : S_.BroadcastsInDim S75 (![] : Fin 0 → Fin S75.rank)
  bcast_S75_S75x1_0 : S75.BroadcastsInDim S75x1 (![0] : Fin 1 → Fin S75x1.rank)
  gather_S262144x160_S25x15x1_S262144x25x15_0_1_n_n_1_2_2621441_wf : GatherDims.WF S262144x160 S25x15x1 S262144x25x15 [0] [1] [] [1] [] 2 ![262144, 1]
  dot_S262144x25x15_S3x15_S262144x25x3_2_1_01_0_n_n_wf : DotDims.WF S262144x25x15 S3x15 S262144x25x3 [2] [1] [0, 1] [0] [] []
  scatter_S262144x75_S75x1_S262144x75_0_1_1_1_wf : ScatterDims.WF S262144x75 S75x1 S262144x75 [0] [1] [1] 1

variable [Facts₀]

def gather_S262144x160_S25x15x1_S262144x25x15_0_1_n_n_1_2_2621441 : GatherDims S262144x160 S25x15x1 S262144x25x15 where
  offsetDims := [0]
  collapsedSliceDims := [1]
  operandBatchingDims := []
  startIndicesBatchingDims := []
  startIndexMap := [1]
  indexVectorDim := 2
  sliceSizes := ![262144, 1]
  wf := gather_S262144x160_S25x15x1_S262144x25x15_0_1_n_n_1_2_2621441_wf
def dot_S262144x25x15_S3x15_S262144x25x3_2_1_01_0_n_n : DotDims S262144x25x15 S3x15 S262144x25x3 where
  lhsContracting := [2]
  rhsContracting := [1]
  lhsNonContracting := [0, 1]
  rhsNonContracting := [0]
  lhsBatch := []
  rhsBatch := []
  wf := dot_S262144x25x15_S3x15_S262144x25x3_2_1_01_0_n_n_wf
def scatter_S262144x75_S75x1_S262144x75_0_1_1_1 : ScatterDims S262144x75 S75x1 S262144x75 where
  updateWindowDims := [0]
  insertedWindowDims := [1]
  scatterDimsToOperandDims := [1]
  indexVectorDim := 1
  wf := scatter_S262144x75_S75x1_S262144x75_0_1_1_1_wf

class Facts : Prop extends Facts₀ where

variable [Facts]
-- ==== Proof.Spec.lean ====
/-
  The function both programs compute.  There are 25 groups; group g reads the 15 input columns K[g, ·] of a row of x,
  applies the one shared linear map (weight W : 3 x 15, bias b : 3), and writes its 3 results to the output columns
  V[g, ·].  Flatten the (group, class) pairs to 75 slots p = 3 g + c.  Slot p's value on row r is
      slotVal r p = (sum over k < 15 of x[r, K[g, k]] * W[c, k]) + b[c].
  Output column j of row r receives the value of the LAST slot p (the largest p) whose target V[p] is j, and 0 when no
  slot targets j.  `wins V p j` says that p is that last slot; at most one p wins a column, so the output is the sum
  over all slots of "slotVal if the slot wins the column, else 0".  The tables enter as plain functions into the
  index ranges (`Kn`, `Vn`): the words of K and V are tied to them where the programs are read.
-/
import Idealize.ShloMosaic.PureOps.Ideal
import Idealize.ShloMosaic.Lib.ValueIdx

noncomputable section

namespace Cert.Spec

open Idealize.ShloMosaic Idealize.ShloMosaic.ValueIdx

abbrev SX : Shape := ⟨2, ![262144, 160]⟩
abbrev SW : Shape := ⟨2, ![3, 15]⟩
abbrev SB : Shape := ⟨1, ![3]⟩
abbrev SK : Shape := ⟨2, ![25, 15]⟩
abbrev SV : Shape := ⟨2, ![25, 3]⟩
abbrev SO : Shape := ⟨2, ![262144, 75]⟩

/-- The group of output slot p = 3 g + c. -/
abbrev grp (p : Fin 75) : Fin 25 := ⟨p.val / 3, by omega⟩
/-- The class of output slot p = 3 g + c. -/
abbrev cls (p : Fin 75) : Fin 3 := ⟨p.val % 3, Nat.mod_lt _ (by decide)⟩
/-- The group of gather slot q = 15 g + k. -/
abbrev qgrp (q : Fin 375) : Fin 25 := ⟨q.val / 15, by omega⟩
/-- The position inside its group of gather slot q = 15 g + k. -/
abbrev qpos (q : Fin 375) : Fin 15 := ⟨q.val % 15, Nat.mod_lt _ (by decide)⟩

/-- Slot p is the last slot that writes output column j. -/
def wins (Vn : Fin 75 → Fin 75) (p j : Fin 75) : Prop := Vn p = j ∧ ∀ p' : Fin 75, Vn p' = j → p' ≤ p

instance (Vn : Fin 75 → Fin 75) (p j : Fin 75) : Decidable (wins Vn p j) := by unfold wins; infer_instance

/-- At most one slot wins a column. -/
theorem wins_unique {Vn : Fin 75 → Fin 75} {p p' j : Fin 75} (h : wins Vn p j) (h' : wins Vn p' j) : p = p' :=
  le_antisymm (h'.2 p h.1) (h.2 p' h'.1)

/-- The value of slot p on row r: the group's 15 gathered inputs against the class's weight row, plus its bias. -/
def slotVal (x : SX.Idx → EReal) (W : SW.Idx → EReal) (b : SB.Idx → EReal) (Kn : Fin 25 → Fin 15 → Fin 160)
    (r : Fin 262144) (p : Fin 75) : EReal :=
  (∑ k : Fin 15, x (ix2 r (Kn (grp p) k)) * W (ix2 (cls p) k)) + b (ix1 (cls p))

/-- The output at row r, column j. -/
def outAt (x : SX.Idx → EReal) (W : SW.Idx → EReal) (b : SB.Idx → EReal) (Kn : Fin 25 → Fin 15 → Fin 160)
    (Vn : Fin 75 → Fin 75) (r : Fin 262144) (j : Fin 75) : EReal :=
  ∑ p : Fin 75, if wins Vn p j then slotVal x W b Kn r p else 0

/-- The whole output array. -/
def out (x : SX.Idx → EReal) (W : SW.Idx → EReal) (b : SB.Idx → EReal) (Kn : Fin 25 → Fin 15 → Fin 160)
    (Vn : Fin 75 → Fin 75) : SO.Idx → EReal :=
  fun i => outAt x W b Kn Vn ⟨(i 0).val, idx2_lt0 i⟩ ⟨(i 1).val, idx2_lt1 i⟩

/-- The words of the gather table K are the numbers Kn. -/
def KIs (K : IVec SK 32) (Kn : Fin 25 → Fin 15 → Fin 160) : Prop :=
  ∀ (g : Fin 25) (k : Fin 15), K (ix2 g k) = BitVec.ofNat 32 (Kn g k).val

/-- The words of the scatter table V are the numbers Vn, slot by slot. -/
def VIs (V : IVec SV 32) (Vn : Fin 75 → Fin 75) : Prop :=
  ∀ p : Fin 75, V (ix2 (grp p) (cls p)) = BitVec.ofNat 32 (Vn p).val

/-- Every entry of a float array is a real number. -/
def Finite {s : Shape} (a : s.Idx → EReal) : Prop := ∀ i, ∃ v : ℝ, a i = (v : EReal)

end Cert.Spec

end
-- ==== Proof.PreFacts.lean ====
/-
  What the precondition says of the inputs: every float finite, every table entry a number in its index range.
-/
import proofs.«420357_j73778948210890_3_alg».proof.Pre_finite_inputs
import proofs.«420357_j73778948210890_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec

/-- The scalar shape has one index. -/
instance : Subsingleton Cert.Pre_finite_inputs.S_.Idx := ⟨fun a b => funext fun d => d.elim0⟩

/-- A value whose magnitude is strictly below +∞ is a real number: neither infinity passes the test. -/
private theorem real_of_abs_lt_inf (a : EReal)
    (h : Ideal.cmp .olt (max a (-a)) (Ideal.ofBits .f32 0x7F800000#32) = 1#1) : ∃ v : ℝ, a = (v : EReal) := by
  have htop : Ideal.ofBits .f32 0x7F800000#32 = ⊤ := by simp [Ideal.ofBits, Ideal.ieee]
  rw [htop] at h
  unfold Ideal.cmp at h
  have h' : max a (-a) < ⊤ := by
    simpa [StableHlo.Predicate.ofBool_eq_one_iff] using h
  rw [max_lt_iff] at h'
  induction a using EReal.rec with
  | bot => simp at h'
  | coe r => exact ⟨r, rfl⟩
  | top => simp at h'

/-- "Every |a i| is below +∞", as an all-reduction by `and` that came out 1: every entry of `a` is a real number. -/
private theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr h0 ix0 = 1#1) :
    Finite a := by
  intro i
  have hi := Host.reduce_andi_all _ _ hr h0 ix0 e i
  exact real_of_abs_lt_inf (a i) hi

/-- A 32-bit word that tests signed ≥ 0 and signed < c, for a small bound c, is as a number below c:
    nonnegative signed means the top bit is clear, so the word reads the same signed and unsigned. -/
private theorem word_lt_of_range (k c : BitVec 32) (n : ℕ) (hcn : c.toNat = n) (hn : n < 2 ^ 31)
    (h : IntOp.andi (IntOp.cmpi .sge k 0#32) (IntOp.cmpi .slt k c) = 1#1) : k.toNat < n := by
  obtain ⟨hge, hlt⟩ := IntOp.andi_eq_one.1 h
  rw [IntOp.cmpi_sge, show (0#32 : BitVec 32).toInt = 0 from by decide] at hge
  have hk2 : 2 * k.toNat < 2 ^ 32 := BitVec.toInt_pos_iff.1 hge
  have hk : k.toNat < 2 ^ 31 := by omega
  have hlt' := (StableHlo.Predicate.slt_iff_toNat hk (by rw [hcn]; exact hn)).1 hlt
  rw [hcn] at hlt'
  exact hlt'

/-- "Every entry of T is ≥ 0 and < c", as an all-reduction by `and` that came out 1: every entry is a number below c. -/
private theorem range_of_all {s : Shape} {axes : List (Fin s.rank)} (T : IVec s 32) (c : BitVec 32) (n : ℕ)
    (hcn : c.toNat = n) (hn : n < 2 ^ 31)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (andi (cmpi .sge T (broadcastInDim s ![] hb (constantI Cert.Pre_finite_inputs.S_ 32 0#32)))
            (cmpi .slt T (broadcastInDim s ![] hb (constantI Cert.Pre_finite_inputs.S_ 32 c))))
          (constantI Cert.Pre_finite_inputs.S_ 1 1#1) hr h0 ix0 = 1#1) (i : s.Idx) :
    (T i).toNat < n := by
  have hi := Host.reduce_andi_all _ _ hr h0 ix0 e i
  exact word_lt_of_range (T i) c n hcn hn hi

/-- A word is the 32-bit word of its own value. -/
private theorem eq_ofNat_toNat (k : BitVec 32) : k = BitVec.ofNat 32 k.toNat := by
  apply BitVec.eq_of_toNat_eq
  rw [BitVec.toNat_ofNat, Nat.mod_eq_of_lt k.isLt]

theorem pre_facts [Cert.Pre_finite_inputs.Facts] (x : FVec Ideal SX .f32) (W : FVec Ideal SW .f32) (b : FVec Ideal SB .f32)
    (K : IVec SK 32) (V : IVec SV 32)
    (h : Cert.Pre_finite_inputs.fn (F := Ideal) x W b K V = fun _ => 1#1) :
    Finite x ∧ Finite W ∧ Finite b ∧ (∃ Kn : Fin 25 → Fin 15 → Fin 160, KIs K Kn) ∧ (∃ Vn : Fin 75 → Fin 75, VIs V Vn) := by
  have h0 := congrFun h ix0
  unfold Cert.Pre_finite_inputs.fn Cert.Pre_finite_inputs.fn_part1 at h0
  dsimp only at h0
  obtain ⟨h1, hV⟩ := IntOp.andi_eq_one.1 h0
  obtain ⟨h2, hK⟩ := IntOp.andi_eq_one.1 h1
  obtain ⟨h3, hb⟩ := IntOp.andi_eq_one.1 h2
  obtain ⟨hx, hW⟩ := IntOp.andi_eq_one.1 h3
  clear h0 h1 h2 h3
  have hKlt : ∀ i, (K i).toNat < 160 := fun i => range_of_all K 160#32 160 (by decide) (by decide) _ _ _ hK i
  have hVlt : ∀ i, (V i).toNat < 75 := fun i => range_of_all V 75#32 75 (by decide) (by decide) _ _ _ hV i
  refine ⟨finite_of_all x _ _ _ hx, finite_of_all W _ _ _ hW, finite_of_all b _ _ _ hb, ?_, ?_⟩
  · exact ⟨fun g k => ⟨(K (ix2 g k)).toNat, hKlt _⟩, fun g k => eq_ofNat_toNat _⟩
  · exact ⟨fun p => ⟨(V (ix2 (grp p) (cls p))).toNat, hVlt _⟩, fun p => eq_ofNat_toNat _⟩

end Cert.PreFacts

end
-- ==== Proof.LibScatterLast.lean ====
/-
  A scatter whose body returns the update ("set") reads back, at a result index, the LAST update that lands there:
  the host scatter folds the update indices in row-major order, each landing update overwriting the element.
-/
import Idealize.ShloMosaic.PureOps
import Mathlib.Data.List.Sort

namespace Idealize.ShloMosaic

/-- Folding the scatter step over a list none of whose update numbers lands on i leaves the element at i unchanged. -/
private theorem scatter_foldl_apply_of_none {α : Type} {s si u : Shape} {w : Nat} (d : ScatterDims s si u) (f : α → α → α)
    (idx : IVec si w) (upd : u.Idx → α) (i : s.Idx) :
    ∀ (l : List (Fin u.numel)) (r : s.Idx → α), (∀ n ∈ l, d.resultIdx? (u.rowMajor.symm n) idx ≠ some i) →
      (l.foldl (fun r n =>
        match d.resultIdx? (u.rowMajor.symm n) idx with
        | some i => fun i' => if i' = i then f (r i) (upd (u.rowMajor.symm n)) else r i'
        | none => r) r) i = r i := by
  intro l
  induction l with
  | nil => intro r _; rfl
  | cons n t ih =>
    intro r h
    rw [List.foldl_cons, ih _ (fun m hm => h m (List.mem_cons_of_mem _ hm))]
    have hn := h n (List.mem_cons_self ..)
    revert hn
    cases d.resultIdx? (u.rowMajor.symm n) idx with
    | none => intro _; rfl
    | some j =>
      intro hn
      have hij : i ≠ j := fun e => hn (by rw [e])
      simp only [if_neg hij]

/-- If update number n₀ (row-major) lands on result index i and no later update does, a set-scatter leaves that
    update's value at i. -/
theorem Host.scatter_set_apply_of_last {α : Type} {s si u : Shape} {w : Nat} (d : ScatterDims s si u) (x : s.Idx → α)
    (idx : IVec si w) (upd : u.Idx → α) (i : s.Idx) (n₀ : Fin u.numel)
    (h₀ : d.resultIdx? (u.rowMajor.symm n₀) idx = some i)
    (hlast : ∀ n : Fin u.numel, n₀ < n → d.resultIdx? (u.rowMajor.symm n) idx ≠ some i) :
    Host.scatter d (fun _ b => b) x idx upd i = upd (u.rowMajor.symm n₀) := by
  unfold Host.scatter
  -- the row-major list of update numbers is strictly increasing; cut it at n₀
  have hpw : (List.finRange u.numel).Pairwise (· < ·) := (List.sortedLT_finRange _).pairwise
  obtain ⟨a, t, hl⟩ := List.append_of_mem (List.mem_finRange n₀)
  rw [hl] at hpw ⊢
  have ht : ∀ n ∈ t, n₀ < n := (List.pairwise_cons.1 (List.pairwise_append.1 hpw).2.1).1
  rw [List.foldl_append, List.foldl_cons]
  -- every update after n₀ misses i, so the element written at step n₀ survives
  refine (scatter_foldl_apply_of_none d (fun _ b => b) idx upd i t _ (fun n hn => hlast n (ht n hn))).trans ?_
  rw [h₀]
  exact if_pos rfl

/-- If no update lands on result index i, a scatter leaves the operand's element there. -/
theorem Host.scatter_apply_of_none {α : Type} {s si u : Shape} {w : Nat} (d : ScatterDims s si u) (f : α → α → α) (x : s.Idx → α)
    (idx : IVec si w) (upd : u.Idx → α) (i : s.Idx)
    (hnone : ∀ n : Fin u.numel, d.resultIdx? (u.rowMajor.symm n) idx ≠ some i) :
    Host.scatter d f x idx upd i = x i :=
  scatter_foldl_apply_of_none d f idx upd i _ x (fun n _ => hnone n)

end Idealize.ShloMosaic
-- ==== Proof.RefIndex.lean ====
/-
  Which element the reference's gather reads, and where its scatter's updates land, when the tables hold in-range numbers.
-/
import proofs.«420357_j73778948210890_3_alg».proof.Proof.Gen.ReferenceIdeal.Read
import proofs.«420357_j73778948210890_3_alg».proof.Proof.Spec
import Idealize.ShloMosaic.Lib.StableHlo.Predicate

noncomputable section

namespace Cert.RefValue

open Cert.ReferenceIdeal Cert.ReferenceIdeal.Gen Idealize.ShloMosaic Idealize.ShloMosaic.ValueIdx Cert.Spec

/-- A non-negative small word is not below zero as a signed number, so the wrap-around select keeps it. -/
theorem select_keeps (n : Nat) (hn : n < 2 ^ 31) (z c : BitVec 32) (hz : z = 0#32) :
    Scalar.select (IntOp.cmpi .slt (BitVec.ofNat 32 n) z) c (BitVec.ofNat 32 n) = BitVec.ofNat 32 n := by
  subst hz
  have hlt : (BitVec.ofNat 32 n).toNat < 2 ^ 31 := by rw [BitVec.toNat_ofNat]; exact lt_of_le_of_lt (Nat.mod_le _ _) hn
  have h0 : (0#32).toNat < 2 ^ 31 := by decide
  have hne : ¬ IntOp.cmpi .slt (BitVec.ofNat 32 n) 0#32 = 1#1 := by
    rw [StableHlo.Predicate.slt_iff_toNat hlt h0]
    exact Nat.not_lt_zero _
  rw [eq_zero_of_ne_one hne, select_zero]

/-- The gather's index word at (g, k, 0) is the table's number K[g, k]. -/
theorem index_word_K [Cert.ReferenceIdeal.Facts] (K : IVec S25x15 32)
    (Kn : Fin 25 → Fin 15 → Fin 160) (hK : KIs K Kn) (g : Fin 25) (k : Fin 15) :
    Cert.ReferenceIdeal.Read.val_main_v5 (F := Ideal) K (ix3 g k (0 : Fin 1)) = BitVec.ofNat 32 (Kn g k).val := by
  have hi : Read.idx_main_v5 (ix3 g k (0 : Fin 1)) = ix2 g k := by
    funext a
    match a with
    | ⟨0, _⟩ => rfl
    | ⟨1, _⟩ => rfl
  rw [Read.val_main_v5_apply, hi, Read.val_main_v4_apply, Read.val_main_v1_apply, Read.val_main_v0_apply,
    Read.val_main_c_apply, hK g k]
  exact select_keeps _ (lt_trans (Kn g k).isLt (by decide)) _ _ rfl

/-- The scatter's index word at (p, 0) is the table's number V[p]. -/
theorem index_word_V [Cert.ReferenceIdeal.Facts] (V : IVec S25x3 32) (Vn : Fin 75 → Fin 75) (hV : VIs V Vn)
    (p : Fin 75) :
    Cert.ReferenceIdeal.Read.val_main_v19 (F := Ideal) V (ix2 p (0 : Fin 1)) = BitVec.ofNat 32 (Vn p).val := by
  have hi : Read.idx_main_v19 (ix2 p (0 : Fin 1)) = ix1 p := by
    funext a
    match a with
    | ⟨0, _⟩ => rfl
  have hj : Read.idx_main_v12 (ix1 p) = ix2 (grp p) (cls p) := by
    funext a
    match a with
    | ⟨0, _⟩ => rfl
    | ⟨1, _⟩ => rfl
  rw [Read.val_main_v19_apply, hi, Read.val_main_v18_apply, Read.val_main_v15_apply, Read.val_main_v14_apply,
    Read.val_main_c_1_apply, Read.val_main_v12_apply, hj, hV p]
  exact select_keeps _ (lt_trans (Vn p).isLt (by decide)) _ _ rfl

/-! ### The gather's dimension record, axis by axis (operand axes 0 = row, 1 = column) -/

/-- The row axis is not indexed: its slice starts at 0. -/
theorem gather_start_0 [Cert.ReferenceIdeal.Facts] (j : S262144x25x15.Idx) (idx : IVec S25x15x1 32) :
    gather_S262144x160_S25x15x1_S262144x25x15_0_1_n_n_1_2_2621441.start j idx 0 = 0 := by
  unfold GatherDims.start
  rw [dif_neg (show ¬(0 : Fin S262144x160.rank) ∈ gather_S262144x160_S25x15x1_S262144x25x15_0_1_n_n_1_2_2621441.startIndexMap by decide)]

/-- There are no batching axes. -/
theorem gather_batch [Cert.ReferenceIdeal.Facts] (j : S262144x25x15.Idx) (a : Fin S262144x160.rank) :
    gather_S262144x160_S25x15x1_S262144x25x15_0_1_n_n_1_2_2621441.batchCoord j a = 0 :=
  GatherDims.batchCoord_eq_zero _ _ _ (show ¬a ∈ gather_S262144x160_S25x15x1_S262144x25x15_0_1_n_n_1_2_2621441.operandBatchingDims from List.not_mem_nil)

/-- The row axis is the one offset axis: the result's axis 0 runs along it. -/
theorem gather_off_0 [Cert.ReferenceIdeal.Facts] (j : S262144x25x15.Idx) :
    gather_S262144x160_S25x15x1_S262144x25x15_0_1_n_n_1_2_2621441.offCoord j 0 = (j 0).val := by
  unfold GatherDims.offCoord
  rw [dif_pos (show (0 : Fin S262144x160.rank) ∈ gather_S262144x160_S25x15x1_S262144x25x15_0_1_n_n_1_2_2621441.sKept by decide)]
  rfl

/-- The column axis is collapsed: no offset along it. -/
theorem gather_off_1 [Cert.ReferenceIdeal.Facts] (j : S262144x25x15.Idx) :
    gather_S262144x160_S25x15x1_S262144x25x15_0_1_n_n_1_2_2621441.offCoord j 1 = 0 := by
  unfold GatherDims.offCoord
  rw [dif_neg (show ¬(1 : Fin S262144x160.rank) ∈ gather_S262144x160_S25x15x1_S262144x25x15_0_1_n_n_1_2_2621441.sKept by decide)]

/-- The column axis starts at the index word read at (g, k, 0), signed, clamped to the last column. -/
theorem gather_start_1 [Cert.ReferenceIdeal.Facts] (r : Fin 262144) (g : Fin 25) (k : Fin 15) (idx : IVec S25x15x1 32) :
    gather_S262144x160_S25x15x1_S262144x25x15_0_1_n_n_1_2_2621441.start (ix3 r g k) idx 1 = min (idx (ix3 g k (0 : Fin 1))).toInt.toNat (160 - 1) := by
  unfold GatherDims.start
  rw [dif_pos (show (1 : Fin S262144x160.rank) ∈ gather_S262144x160_S25x15x1_S262144x25x15_0_1_n_n_1_2_2621441.startIndexMap by decide)]
  have hsi : gather_S262144x160_S25x15x1_S262144x25x15_0_1_n_n_1_2_2621441.siIdx (ix3 r g k) ⟨List.idxOf (1 : Fin S262144x160.rank) gather_S262144x160_S25x15x1_S262144x25x15_0_1_n_n_1_2_2621441.startIndexMap,
      List.idxOf_lt_length_iff.2 (show (1 : Fin S262144x160.rank) ∈ gather_S262144x160_S25x15x1_S262144x25x15_0_1_n_n_1_2_2621441.startIndexMap by decide)⟩ = ix3 g k (0 : Fin 1) := by
    funext b; refine Fin.ext ?_
    match b with
    | ⟨0, _⟩ => rfl
    | ⟨1, _⟩ => rfl
    | ⟨2, _⟩ => rfl
  rw [hsi]
  rfl

/-- The gathered array at (row r, group g, position k) is x at (r, K[g, k]): the index is non-negative, so it is not
    wrapped, and inside the axis, so it is not clamped. -/
theorem gather_read [Cert.ReferenceIdeal.Facts] (x : FVec Ideal S262144x160 .f32) (K : IVec S25x15 32)
    (Kn : Fin 25 → Fin 15 → Fin 160) (hK : KIs K Kn) (r : Fin 262144) (g : Fin 25) (k : Fin 15) :
    Cert.ReferenceIdeal.Read.val_main_v6 (F := Ideal) x K (ix3 r g k) = x (ix2 r (Kn g k)) := by
  unfold Read.val_main_v6 Host.gather
  refine congrArg x (funext fun a => Fin.ext ?_)
  have hn : (Kn g k).val < 160 := (Kn g k).isLt
  match a with
  | ⟨0, _⟩ =>
    show gather_S262144x160_S25x15x1_S262144x25x15_0_1_n_n_1_2_2621441.start (ix3 r g k) _ 0 + gather_S262144x160_S25x15x1_S262144x25x15_0_1_n_n_1_2_2621441.batchCoord (ix3 r g k) 0 + gather_S262144x160_S25x15x1_S262144x25x15_0_1_n_n_1_2_2621441.offCoord (ix3 r g k) 0 = r.val
    rw [gather_start_0, gather_batch, gather_off_0]
    show 0 + 0 + r.val = r.val
    omega
  | ⟨1, _⟩ =>
    show gather_S262144x160_S25x15x1_S262144x25x15_0_1_n_n_1_2_2621441.start (ix3 r g k) _ 1 + gather_S262144x160_S25x15x1_S262144x25x15_0_1_n_n_1_2_2621441.batchCoord (ix3 r g k) 1 + gather_S262144x160_S25x15x1_S262144x25x15_0_1_n_n_1_2_2621441.offCoord (ix3 r g k) 1 = (Kn g k).val
    rw [gather_start_1, gather_batch, gather_off_1, index_word_K K Kn hK g k,
      StableHlo.Predicate.toInt_ofNat_small _ (by omega), Int.toNat_natCast]
    omega

/-! ### The scatter's dimension record, axis by axis (operand axes 0 = row, 1 = column) -/

/-- The row axis is not indexed: its window starts at 0. -/
theorem scatter_start_0 [Cert.ReferenceIdeal.Facts] (j : S262144x75.Idx) (idx : IVec S75x1 32) :
    scatter_S262144x75_S75x1_S262144x75_0_1_1_1.start j idx 0 = 0 := by
  unfold ScatterDims.start
  rw [dif_neg (show ¬(0 : Fin S262144x75.rank) ∈ scatter_S262144x75_S75x1_S262144x75_0_1_1_1.scatterDimsToOperandDims by decide)]

/-- The row axis is the one window axis: the updates' axis 0 runs along it. -/
theorem scatter_window_0 [Cert.ReferenceIdeal.Facts] (j : S262144x75.Idx) :
    scatter_S262144x75_S75x1_S262144x75_0_1_1_1.window j 0 = (j 0).val := by
  unfold ScatterDims.window
  rw [dif_pos (show (0 : Fin S262144x75.rank) ∈ scatter_S262144x75_S75x1_S262144x75_0_1_1_1.sKept by decide)]
  rfl

/-- The column axis is an inserted axis: the window has no extent along it. -/
theorem scatter_window_1 [Cert.ReferenceIdeal.Facts] (j : S262144x75.Idx) :
    scatter_S262144x75_S75x1_S262144x75_0_1_1_1.window j 1 = 0 := by
  unfold ScatterDims.window
  rw [dif_neg (show ¬(1 : Fin S262144x75.rank) ∈ scatter_S262144x75_S75x1_S262144x75_0_1_1_1.sKept by decide)]

/-- The column axis starts at the index word read at (p, 0), signed. -/
theorem scatter_start_1 [Cert.ReferenceIdeal.Facts] (r : Fin 262144) (p : Fin 75) (idx : IVec S75x1 32) :
    scatter_S262144x75_S75x1_S262144x75_0_1_1_1.start (ix2 r p) idx 1 = (idx (ix2 p (0 : Fin 1))).toInt := by
  unfold ScatterDims.start
  rw [dif_pos (show (1 : Fin S262144x75.rank) ∈ scatter_S262144x75_S75x1_S262144x75_0_1_1_1.scatterDimsToOperandDims by decide)]
  have hsi : scatter_S262144x75_S75x1_S262144x75_0_1_1_1.siIdx (ix2 r p) ⟨List.idxOf (1 : Fin S262144x75.rank) scatter_S262144x75_S75x1_S262144x75_0_1_1_1.scatterDimsToOperandDims,
      List.idxOf_lt_length_iff.2 (show (1 : Fin S262144x75.rank) ∈ scatter_S262144x75_S75x1_S262144x75_0_1_1_1.scatterDimsToOperandDims by decide)⟩ = ix2 p (0 : Fin 1) := by
    funext b; refine Fin.ext ?_
    match b with
    | ⟨0, _⟩ => rfl
    | ⟨1, _⟩ => rfl
  rw [hsi]

/-- The update at (row r, slot p) lands on (r, V[p]): the index is non-negative, so it is not wrapped, and inside the
    axis, so the update is not dropped. -/
theorem scatter_lands [Cert.ReferenceIdeal.Facts] (V : IVec S25x3 32) (Vn : Fin 75 → Fin 75) (hV : VIs V Vn)
    (r : Fin 262144) (p : Fin 75) :
    scatter_S262144x75_S75x1_S262144x75_0_1_1_1.resultIdx? (ix2 r p) (Cert.ReferenceIdeal.Read.val_main_v19 (F := Ideal) V)
      = some (ix2 r (Vn p)) := by
  have hn : (Vn p).val < 75 := (Vn p).isLt
  have hr : r.val < 262144 := r.isLt
  have e0 : scatter_S262144x75_S75x1_S262144x75_0_1_1_1.start (ix2 r p) (Read.val_main_v19 (F := Ideal) V) 0 + scatter_S262144x75_S75x1_S262144x75_0_1_1_1.window (ix2 r p) 0 = (r.val : Int) := by
    rw [scatter_start_0, scatter_window_0]; exact Int.zero_add _
  have e1 : scatter_S262144x75_S75x1_S262144x75_0_1_1_1.start (ix2 r p) (Read.val_main_v19 (F := Ideal) V) 1 + scatter_S262144x75_S75x1_S262144x75_0_1_1_1.window (ix2 r p) 1 = ((Vn p).val : Int) := by
    rw [scatter_start_1, scatter_window_1, index_word_V V Vn hV p, StableHlo.Predicate.toInt_ofNat_small _ (by omega)]
    exact Int.add_zero _
  have h : ∀ a, 0 ≤ scatter_S262144x75_S75x1_S262144x75_0_1_1_1.start (ix2 r p) (Read.val_main_v19 (F := Ideal) V) a + scatter_S262144x75_S75x1_S262144x75_0_1_1_1.window (ix2 r p) a ∧
      scatter_S262144x75_S75x1_S262144x75_0_1_1_1.start (ix2 r p) (Read.val_main_v19 (F := Ideal) V) a + scatter_S262144x75_S75x1_S262144x75_0_1_1_1.window (ix2 r p) a < S262144x75.size a := by
    intro a
    match a with
    | ⟨0, _⟩ =>
      show 0 ≤ scatter_S262144x75_S75x1_S262144x75_0_1_1_1.start (ix2 r p) _ 0 + scatter_S262144x75_S75x1_S262144x75_0_1_1_1.window (ix2 r p) 0 ∧ scatter_S262144x75_S75x1_S262144x75_0_1_1_1.start (ix2 r p) _ 0 + scatter_S262144x75_S75x1_S262144x75_0_1_1_1.window (ix2 r p) 0 < ((262144 : Nat) : Int)
      rw [e0]; omega
    | ⟨1, _⟩ =>
      show 0 ≤ scatter_S262144x75_S75x1_S262144x75_0_1_1_1.start (ix2 r p) _ 1 + scatter_S262144x75_S75x1_S262144x75_0_1_1_1.window (ix2 r p) 1 ∧ scatter_S262144x75_S75x1_S262144x75_0_1_1_1.start (ix2 r p) _ 1 + scatter_S262144x75_S75x1_S262144x75_0_1_1_1.window (ix2 r p) 1 < ((75 : Nat) : Int)
      rw [e1]; omega
  rw [ScatterDims.resultIdx?, dif_pos h]
  refine congrArg some (funext fun a => Fin.ext ?_)
  match a with
  | ⟨0, _⟩ =>
    show (scatter_S262144x75_S75x1_S262144x75_0_1_1_1.start (ix2 r p) (Read.val_main_v19 (F := Ideal) V) 0 + scatter_S262144x75_S75x1_S262144x75_0_1_1_1.window (ix2 r p) 0).toNat = r.val
    rw [e0, Int.toNat_natCast]
  | ⟨1, _⟩ =>
    show (scatter_S262144x75_S75x1_S262144x75_0_1_1_1.start (ix2 r p) (Read.val_main_v19 (F := Ideal) V) 1 + scatter_S262144x75_S75x1_S262144x75_0_1_1_1.window (ix2 r p) 1).toNat = (Vn p).val
    rw [e1, Int.toNat_natCast]

end Cert.RefValue

end
-- ==== Proof.RefValue.lean ====
/-
  The reference's result is the specification's output.
-/
import proofs.«420357_j73778948210890_3_alg».proof.Proof.Gen.ReferenceIdeal.Read
import proofs.«420357_j73778948210890_3_alg».proof.Proof.Spec
import proofs.«420357_j73778948210890_3_alg».proof.Proof.LibScatterLast
import proofs.«420357_j73778948210890_3_alg».proof.Proof.RefIndex

noncomputable section

namespace Cert.RefValue

open Cert.ReferenceIdeal Cert.ReferenceIdeal.Gen Idealize.ShloMosaic Idealize.ShloMosaic.ValueIdx Cert.Spec

/-- If some slot targets column j, the largest such slot wins the column. -/
theorem exists_wins_of_hit (Vn : Fin 75 → Fin 75) (p j : Fin 75) (hp : Vn p = j) : ∃ p₀, wins Vn p₀ j := by
  obtain ⟨p₀, hmem, hmax⟩ := Finset.exists_max_image (Finset.univ.filter (fun q : Fin 75 => Vn q = j)) id
    ⟨p, Finset.mem_filter.mpr ⟨Finset.mem_univ _, hp⟩⟩
  refine ⟨p₀, (Finset.mem_filter.mp hmem).2, fun p' hp' => ?_⟩
  exact hmax p' (Finset.mem_filter.mpr ⟨Finset.mem_univ _, hp'⟩)

/-- The row-major number of the update index (row r, slot p) is 75 r + p. -/
theorem rowMajor_upd (r : Fin 262144) (p : Fin 75) : (S262144x75.rowMajor (ix2 r p)).val = r.val * 75 + p.val :=
  Shape.rowMajor_val_two (d := ![262144, 75]) (ix2 r p)

/-- The update written by slot p on row r is the slot's value: the reshape sends (r, p) to (r, p / 3, p % 3), the
    contraction is the sum over the 15 gathered inputs of the group, and the bias is read at the class. -/
theorem upd_value [Cert.ReferenceIdeal.Facts] (x : FVec Ideal S262144x160 .f32) (W : FVec Ideal S3x15 .f32) (b : FVec Ideal S3 .f32)
    (K : IVec S25x15 32) (Kn : Fin 25 → Fin 15 → Fin 160) (hK : KIs K Kn) (r : Fin 262144) (p : Fin 75) :
    Read.val_main_v13 (F := Ideal) x W b K (ix2 r p) = slotVal x W b Kn r p := by
  rw [Read.val_main_v13_apply, Read.val_main_v10_apply, Read.val_main_v7_apply, Read.val_main_v9_apply,
    Read.val_main_v8_apply]
  unfold slotVal
  show (∑ k : Fin 15, _) + _ = _
  have hp : p.val < 75 := p.isLt
  congr 1
  · refine Finset.sum_congr rfl fun k _ => ?_
    have e1 : Read.lidx_main_v7 (Read.idx_main_v13 (ix2 r p)) k = ix3 r (grp p) k := funext fun a => Fin.ext (by
      match a with
      | ⟨0, _⟩ => show (r.val * 75 + p.val) / 75 = r.val; omega
      | ⟨1, _⟩ => show (r.val * 75 + p.val) / 3 % 25 = p.val / 3; omega
      | ⟨2, _⟩ => rfl)
    have e2 : Read.ridx_main_v7 (Read.idx_main_v13 (ix2 r p)) k = ix2 (cls p) k := funext fun a => Fin.ext (by
      match a with
      | ⟨0, _⟩ => show (r.val * 75 + p.val) % 3 = p.val % 3; omega
      | ⟨1, _⟩ => rfl)
    rw [e1, e2, gather_read x K Kn hK]
  · have e3 : Read.idx_main_v8 (Read.idx_main_v9 (Read.idx_main_v13 (ix2 r p))) = ix1 (cls p) := funext fun a => Fin.ext (by
      match a with
      | ⟨0, _⟩ => show (r.val * 75 + p.val) % 3 = p.val % 3; omega)
    rw [e3]

/-- An update index that lands on (r, j) is on row r and its slot targets column j. -/
theorem lands_imp [Cert.ReferenceIdeal.Facts] (V : IVec S25x3 32) (Vn : Fin 75 → Fin 75) (hV : VIs V Vn)
    (r r' : Fin 262144) (j p' : Fin 75)
    (h : scatter_S262144x75_S75x1_S262144x75_0_1_1_1.resultIdx? (ix2 r' p') (Read.val_main_v19 (F := Ideal) V)
      = some (ix2 r j)) : r' = r ∧ Vn p' = j := by
  rw [scatter_lands V Vn hV r' p'] at h
  have e := Option.some.inj h
  exact ⟨congrFun e 0, congrFun e 1⟩

/-- When slot p₀ wins column j, the scatter leaves slot p₀'s value at (r, j): update (r, p₀) lands there, and any
    later update (r', p') with 75 r' + p' > 75 r + p₀ that landed there would be a slot p' > p₀ targeting j. -/
theorem scatter_win [Cert.ReferenceIdeal.Facts] (x : FVec Ideal S262144x160 .f32) (W : FVec Ideal S3x15 .f32) (b : FVec Ideal S3 .f32)
    (K : IVec S25x15 32) (V : IVec S25x3 32) (Kn : Fin 25 → Fin 15 → Fin 160) (Vn : Fin 75 → Fin 75)
    (hK : KIs K Kn) (hV : VIs V Vn) (r : Fin 262144) (j p₀ : Fin 75) (hw : wins Vn p₀ j) :
    Read.val_main_v20 (F := Ideal) x W b K V (ix2 r j) = slotVal x W b Kn r p₀ := by
  unfold Read.val_main_v20
  refine (Host.scatter_set_apply_of_last scatter_S262144x75_S75x1_S262144x75_0_1_1_1 (Read.val_main_v11 (F := Ideal))
    (Read.val_main_v19 (F := Ideal) V) (Read.val_main_v13 (F := Ideal) x W b K) (ix2 r j)
    (S262144x75.rowMajor (ix2 r p₀)) ?_ ?_).trans ?_
  · rw [Equiv.symm_apply_apply, scatter_lands V Vn hV r p₀, hw.1]
  · intro n hn hland
    obtain ⟨r', p', hi⟩ : ∃ (r' : Fin 262144) (p' : Fin 75), S262144x75.rowMajor.symm n = ix2 r' p' :=
      ⟨S262144x75.rowMajor.symm n 0, S262144x75.rowMajor.symm n 1, eq_ix2 _⟩
    rw [hi] at hland
    obtain ⟨hr, hp⟩ := lands_imp V Vn hV r r' j p' hland
    have hle : p' ≤ p₀ := hw.2 p' hp
    have hn' : (S262144x75.rowMajor (ix2 r p₀)).val < n.val := hn
    have hnv : n = S262144x75.rowMajor (ix2 r' p') := by rw [← hi, Equiv.apply_symm_apply]
    rw [hnv, rowMajor_upd, rowMajor_upd, hr] at hn'
    have : p'.val ≤ p₀.val := hle
    omega
  · rw [Equiv.symm_apply_apply]
    exact upd_value x W b K Kn hK r p₀

/-- When no slot wins column j, no slot targets it, no update lands on (r, j), and the scatter leaves the zero there. -/
theorem scatter_none [Cert.ReferenceIdeal.Facts] (x : FVec Ideal S262144x160 .f32) (W : FVec Ideal S3x15 .f32) (b : FVec Ideal S3 .f32)
    (K : IVec S25x15 32) (V : IVec S25x3 32) (Vn : Fin 75 → Fin 75)
    (hV : VIs V Vn) (r : Fin 262144) (j : Fin 75) (hno : ¬∃ p, wins Vn p j) :
    Read.val_main_v20 (F := Ideal) x W b K V (ix2 r j) = 0 := by
  unfold Read.val_main_v20
  refine (Host.scatter_apply_of_none scatter_S262144x75_S75x1_S262144x75_0_1_1_1 (fun _ b => b) (Read.val_main_v11 (F := Ideal))
    (Read.val_main_v19 (F := Ideal) V) (Read.val_main_v13 (F := Ideal) x W b K) (ix2 r j) ?_).trans ?_
  · intro n hland
    obtain ⟨r', p', hi⟩ : ∃ (r' : Fin 262144) (p' : Fin 75), S262144x75.rowMajor.symm n = ix2 r' p' :=
      ⟨S262144x75.rowMajor.symm n 0, S262144x75.rowMajor.symm n 1, eq_ix2 _⟩
    rw [hi] at hland
    obtain ⟨_, hp⟩ := lands_imp V Vn hV r r' j p' hland
    exact hno (exists_wins_of_hit Vn p' j hp)
  · rw [Read.val_main_v11_apply, Read.val_main_cst_apply]
    exact Ideal.ofBits_zero_f32

theorem ref_eq_out [Cert.ReferenceIdeal.Facts] (x : FVec Ideal S262144x160 .f32) (W : FVec Ideal S3x15 .f32) (b : FVec Ideal S3 .f32)
    (K : IVec S25x15 32) (V : IVec S25x3 32) (Kn : Fin 25 → Fin 15 → Fin 160) (Vn : Fin 75 → Fin 75)
    (hK : KIs K Kn) (hV : VIs V Vn) :
    Cert.ReferenceIdeal.Read.val_main_v20 (F := Ideal) x W b K V = Cert.Spec.out x W b Kn Vn := by
  funext i
  obtain ⟨r, j, rfl⟩ : ∃ (r : Fin 262144) (j : Fin 75), i = ix2 r j := ⟨i 0, i 1, eq_ix2 i⟩
  show _ = outAt x W b Kn Vn r j
  unfold outAt
  by_cases h : ∃ p, wins Vn p j
  · obtain ⟨p₀, hw⟩ := h
    rw [scatter_win x W b K V Kn Vn hK hV r j p₀ hw, Finset.sum_eq_single p₀, if_pos hw]
    · intro p _ hne
      rw [if_neg (fun hp => hne (wins_unique hp hw))]
    · intro hm
      exact absurd (Finset.mem_univ _) hm
  · rw [scatter_none x W b K V Vn hV r j h]
    refine (Finset.sum_eq_zero fun p _ => ?_).symm
    rw [if_neg (fun hp => h ⟨p, hp⟩)]

end Cert.RefValue

end
-- ==== Proof.KernelValue.lean ====
/-
  The value the kernel leaves in its output array.  Grid point t works on rows [8192 t, 8192 t + 8192): its body
  multiplies that block of x by the whole fused weight (a matrix product into a zero accumulator, read at Ideal as a
  plain sum over the 160 input columns) and adds the bias row to every row.  So block t of the output is block t of
      outOf X M B (r, j) = (sum over f < 160 of X[r, f] * M[f, j]) + B[0, j],
  the 32 blocks cover the array, and the array after the run is outOf of the arrays the region found.
-/
import proofs.«420357_j73778948210890_3_alg».proof.Proof.Gen.KernelIdeal.Value
import Idealize.ShloMosaic.Lib.Pipeline.Value
import Idealize.ShloMosaic.Lib.ValueIdx
import Idealize.ShloMosaic.PureOps.Ideal.Laws

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's matrix product at an entry -/

theorem lhs_mm_0 (i : S8192x75.Idx) (q : dot_S8192x160_S160x75_S8192x75_1_0_0_1_n_n.contr.Idx) :
    (dot_S8192x160_S160x75_S8192x75_1_0_0_1_n_n.lhsIdx i q 0).val = (i 0).val := by
  unfold DotDims.lhsIdx
  rw [dif_neg (show ¬(0 : Fin S8192x160.rank) ∈ dot_S8192x160_S160x75_S8192x75_1_0_0_1_n_n.lhsBatch by decide), dif_pos (show (0 : Fin S8192x160.rank) ∈ dot_S8192x160_S160x75_S8192x75_1_0_0_1_n_n.lhsNonContracting by decide)]
  rfl
theorem lhs_mm_1 (i : S8192x75.Idx) (q : dot_S8192x160_S160x75_S8192x75_1_0_0_1_n_n.contr.Idx) :
    (dot_S8192x160_S160x75_S8192x75_1_0_0_1_n_n.lhsIdx i q 1).val = (q ⟨0, by decide⟩).val :=
  dot_S8192x160_S160x75_S8192x75_1_0_0_1_n_n.lhsIdx_val_of_single rfl i q
theorem rhs_mm_0 (i : S8192x75.Idx) (q : dot_S8192x160_S160x75_S8192x75_1_0_0_1_n_n.contr.Idx) :
    (dot_S8192x160_S160x75_S8192x75_1_0_0_1_n_n.rhsIdx i q 0).val = (q ⟨0, by decide⟩).val :=
  dot_S8192x160_S160x75_S8192x75_1_0_0_1_n_n.rhsIdx_val_of_single rfl i q
theorem rhs_mm_1 (i : S8192x75.Idx) (q : dot_S8192x160_S160x75_S8192x75_1_0_0_1_n_n.contr.Idx) :
    (dot_S8192x160_S160x75_S8192x75_1_0_0_1_n_n.rhsIdx i q 1).val = (i 1).val := by
  unfold DotDims.rhsIdx
  rw [dif_neg (show ¬(1 : Fin S160x75.rank) ∈ dot_S8192x160_S160x75_S8192x75_1_0_0_1_n_n.rhsBatch by decide), dif_pos (show (1 : Fin S160x75.rank) ∈ dot_S8192x160_S160x75_S8192x75_1_0_0_1_n_n.rhsNonContracting by decide)]
  rfl

/-- The product of a block of rows with the weight, into a zero accumulator, at entry (p, q): the sum over the
    160 shared columns. -/
theorem mm_apply (v0 : Vec Ideal S8192x160 .f32) (v1 : Vec Ideal S160x75 .f32) (p : Fin 8192) (q : Fin 75) :
    matmul (F := Ideal) (φ₁ := .f32) (φ₂ := .f32) dot_S8192x160_S160x75_S8192x75_1_0_0_1_n_n none v0 v1 (constant (F := Ideal) S8192x75 .f32 0x00000000#32) (ix2 p q)
      = ∑ f : Fin 160, v0 (ix2 p f) * v1 (ix2 f q) := by
  simp only [matmul]
  rw [Ideal.matmul_constant_zero_apply, ← Equiv.sum_comp (contrEquiv1 dot_S8192x160_S160x75_S8192x75_1_0_0_1_n_n 160 rfl rfl).symm]
  refine Finset.sum_congr rfl fun k _ => ?_
  have hk := contrEquiv1_symm_val dot_S8192x160_S160x75_S8192x75_1_0_0_1_n_n 160 rfl rfl k
  have el : dot_S8192x160_S160x75_S8192x75_1_0_0_1_n_n.lhsIdx (ix2 p q) ((contrEquiv1 dot_S8192x160_S160x75_S8192x75_1_0_0_1_n_n 160 rfl rfl).symm k) = ix2 p k := funext fun a => Fin.ext (by
    match a with
    | ⟨0, _⟩ => exact lhs_mm_0 _ _
    | ⟨1, _⟩ => exact (lhs_mm_1 _ _).trans hk)
  have er : dot_S8192x160_S160x75_S8192x75_1_0_0_1_n_n.rhsIdx (ix2 p q) ((contrEquiv1 dot_S8192x160_S160x75_S8192x75_1_0_0_1_n_n 160 rfl rfl).symm k) = ix2 k q := funext fun a => Fin.ext (by
    match a with
    | ⟨0, _⟩ => exact (rhs_mm_0 _ _).trans hk
    | ⟨1, _⟩ => exact rhs_mm_1 _ _)
  rw [el, er]

/-- The bias row broadcast down the 8192 rows, at entry (p, q): the row's entry q. -/
theorem bias_apply (v4 : Vec Ideal S1x75 .f32) (p : Fin 8192) (q : Fin 75) :
    (broadcastTo S8192x75 v4 Facts₀.broadcasts_S1x75_S8192x75 : S8192x75.Idx → EReal) (ix2 p q) = v4 (ix2 (0 : Fin 1) q) :=
  broadcastTo_apply v4 Facts₀.broadcasts_S1x75_S8192x75 (ix2 p q) (ix2 (0 : Fin 1) q) (fun a => match a with
    | ⟨0, _⟩ => by show (0 : Nat) = if (1 : Nat) = 1 then 0 else _; rw [if_pos rfl]
    | ⟨1, _⟩ => by show q.val = if (75 : Nat) = 1 then 0 else q.val; rw [if_neg (by decide)])

/-- The body's stored value at entry (p, q) of the block. -/
theorem pay_apply (v0 : Vec Ideal S8192x160 .f32) (v1 : Vec Ideal S160x75 .f32) (v4 : Vec Ideal S1x75 .f32) (j : S8192x75.Idx) :
    k0_pay1 v0 v1 v4 j
      = (∑ f : Fin 160, v0 (ix2 ⟨(j 0).val, idx2_lt0 j⟩ f) * v1 (ix2 f ⟨(j 1).val, idx2_lt1 j⟩))
        + v4 (ix2 (0 : Fin 1) ⟨(j 1).val, idx2_lt1 j⟩) := by
  obtain ⟨p, q, rfl⟩ : ∃ (p : Fin 8192) (q : Fin 75), j = ix2 p q := ⟨j 0, j 1, eq_ix2 j⟩
  unfold k0_pay1
  dsimp only
  rw [shapeCast_self, shapeCast_self, addf_apply, mm_apply, bias_apply]

/-! ## From the blocks to the array -/

variable (m : (ℓ : Loc nD τ sig) → Buf (Elt Ideal) ℓ) (ρ : Dev nD → PrngReg)

theorem hz : (![0, 0] : Fin 2 → Nat) = fun _ => 0 := funext fun a => by fin_cases a <;> rfl

/-- The output as one function of the input array X, the weight M and the bias row B. -/
def outOf (X : S262144x160.Idx → EReal) (M : S160x75.Idx → EReal) (B : S1x75.Idx → EReal) : S262144x75.Idx → EReal :=
  fun i => (∑ f : Fin 160, X (ix2 ⟨(i 0).val, idx2_lt0 i⟩ f) * M (ix2 f ⟨(i 1).val, idx2_lt1 i⟩))
    + B (ix2 (0 : Fin 1) ⟨(i 1).val, idx2_lt1 i⟩)

/-- The index maps over the 32 grid points: the input block of x moves with the output block down the rows, the
    weight and the bias are fetched whole, and the output's block row is the point's number. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point t writes back is block t of `outOf` of the arrays the region found. -/
theorem flushed3_eq (c : Dev nD) (t : Fin cfg0.N) :
    (dats m 0 c).flushed 3 t
      = ((cfg0.win 3).blk t).view.read (Elt Ideal) (outOf (V m c main_arg0) (V m c main_call0_v39) (V m c main_call0_v46)) := by
  rw [Value.flushed3]
  unfold out0_3
  rw [View.canon_unit_zero hz]
  simp only [View.ld_unit_zero (S := S8192x160) hz, View.ld_unit_zero (S := S160x75) hz, View.ld_unit_zero (S := S1x75) hz]
  obtain ⟨e0, e1, e2, e3, e4, e5, e6, e7⟩ := idx_facts t
  funext j
  refine (pay_apply (iblk m c 0 t) (iblk m c 1 t) (iblk m c 2 t) j).trans ?_
  show _ = outOf (V m c main_arg0) (V m c main_call0_v39) (V m c main_call0_v46) (((cfg0.win 3).blk t).view.emb j)
  unfold outOf
  have hj0 : (j 0).val < 8192 := idx2_lt0 j
  have hj1 : (j 1).val < 75 := idx2_lt1 j
  have b1 : ∀ y : S160x75.Idx, iblk m c 1 t y = V m c main_call0_v39 y := fun y => by
    show V m c main_call0_v39 (((cfg0.win 1).blk t).view.emb y) = V m c main_call0_v39 y
    refine congrArg _ (funext fun a => Fin.ext ?_)
    match a with
    | ⟨0, _⟩ => show win0_1.index t (0 : Fin 2) * 160 + 1 * (y 0).val = (y 0).val; omega
    | ⟨1, _⟩ => show win0_1.index t (1 : Fin 2) * 75 + 1 * (y 1).val = (y 1).val; omega
  have b2 : ∀ y : S1x75.Idx, iblk m c 2 t y = V m c main_call0_v46 y := fun y => by
    show V m c main_call0_v46 (((cfg0.win 2).blk t).view.emb y) = V m c main_call0_v46 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 75 + 1 * (y 1).val = (y 1).val; omega
  have h30 : ((((cfg0.win 3).blk t).view.emb j) 0).val = win0_3.index t (0 : Fin 2) * 8192 + 1 * (j 0).val := rfl
  have h31 : ((((cfg0.win 3).blk t).view.emb j) 1).val = win0_3.index t (1 : Fin 2) * 75 + 1 * (j 1).val := rfl
  have b0 : ∀ f : Fin 160, iblk m c 0 t (ix2 ⟨(j 0).val, hj0⟩ f)
      = V m c main_arg0 (ix2 ⟨((((cfg0.win 3).blk t).view.emb j) 0).val, idx2_lt0 _⟩ f) := fun f => by
    show V m c main_arg0 (((cfg0.win 0).blk t).view.emb (ix2 ⟨(j 0).val, hj0⟩ f)) = _
    refine congrArg _ (funext fun a => Fin.ext ?_)
    match a with
    | ⟨0, _⟩ => show win0_0.index t (0 : Fin 2) * 8192 + 1 * (j 0).val = ((((cfg0.win 3).blk t).view.emb j) 0).val; rw [h30]; omega
    | ⟨1, _⟩ => show win0_0.index t (1 : Fin 2) * 160 + 1 * f.val = f.val; omega
  have q1 : (⟨((((cfg0.win 3).blk t).view.emb j) 1).val, idx2_lt1 _⟩ : Fin 75) = ⟨(j 1).val, hj1⟩ := Fin.ext (by show ((((cfg0.win 3).blk t).view.emb j) 1).val = (j 1).val; rw [h31]; omega)
  rw [q1, b2]
  refine congrArg (· + _) (Finset.sum_congr rfl fun f _ => ?_)
  rw [b0 f, b1]

/-- An index of the array is in point t's block iff each coordinate is in the block's range on its axis. -/
theorem mem_blk3 (t : Fin cfg0.N) (i : S262144x75.Idx) :
    i ∈ ((cfg0.win 3).blk t).view.set ↔ ∀ a : Fin 2, win0_3.index t a * S8192x75.size a ≤ (i a).val ∧ (i a).val < win0_3.index t a * S8192x75.size a + S8192x75.size a := by
  show i ∈ ((View.whole main_v0).slice (win0_3.rect t)).set ↔ _
  rw [View.set_slice_whole, Rect.mem_set_unit]
  exact Iff.rfl

/-- Every index of the output is in the block of the point that owns its row: point ⌊r / 8192⌋. -/
theorem cover3 (i : S262144x75.Idx) : ∃ t : Fin cfg0.N, (cfg0.win 3).flush t = true ∧ i ∈ ((cfg0.win 3).blk t).view.set := by
  have hi0 : (i 0).val < 262144 := idx2_lt0 i
  have hi1 : (i 1).val < 75 := idx2_lt1 i
  let t : Fin cfg0.N := ⟨(i 0).val / 8192, by show (i 0).val / 8192 < 32; omega⟩
  obtain ⟨e0, e1, e2, e3, e4, e5, e6, e7⟩ := idx_facts t
  have e7' : win0_3.index t (0 : Fin 2) = (i 0).val / 8192 := e7
  refine ⟨t, flush0_3 t, ?_⟩
  rw [mem_blk3]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 75 ≤ (i 1).val ∧ (i 1).val < win0_3.index t (1 : Fin 2) * 75 + 75; omega

/-- The output array after the run. -/
theorem final3 (c : Dev nD) :
    (dats m 0 c).arrAt 3 cfg0.N = outOf (V m c main_arg0) (V m c main_call0_v39) (V m c main_call0_v46) :=
  (dats m 0 c).arrAt_eq_of_cover 3 _ (fun t _ => flushed3_eq m c t) cover3

end Cert.KernelIdeal.KernelValue

end
-- ==== Proof.HostTerms.lean ====
/-
  The host-side parameter plumbing of the kernel's program, as pure terms.  Before the one pallas_call the program
  builds, from the tables K (which input columns a group reads) and V (which output column a slot writes), the
  weight W and the bias b: the selection matrix `selMat K` (row f, column q is 1 exactly when slot q of the flattened
  K names input column f), the block-diagonal weight `blockW W` (row (g,i), column (g',c) is [g = g'] * W[c,i]), the
  last-write-wins scatter matrix `lastMat V` (row p, column j is 1 exactly when flattened V sends slot p to column j
  and no later slot goes there), and from them the fused weight `fusedM` = selMat · (blockW · lastMat) and the fused
  bias `fusedB` = tile(b) · lastMat.  Each definition is the program's own sequence of operations.
-/
import proofs.«420357_j73778948210890_3_alg».proof.KernelIdeal

noncomputable section

namespace Cert.KernelIdeal.HostTerms

open Cert.KernelIdeal Idealize.ShloMosaic
open Cert.KernelIdeal.Facts₀

variable {F : FTy → Type} [FloatOps F] [Facts]

/-- The flattened scatter table: slot p = 3 g + c holds V[g, c]. -/
def flatV (V : IVec S25x3 32) : IVec S75 32 := shapeCast _ V shapeCasts_S25x3_S75

/-- Row p, column j: does slot p write column j?  (flattened V down the rows against the column number) -/
def hitMask (V : IVec S25x3 32) : IVec S75x75 1 :=
  cmpi .eq
    (broadcastInDim S75x75 ![0, 1] bcast_S75x1_S75x75_0_1 (broadcastInDim S75x1 ![0] bcast_S75_S75x1_0 (flatV V)))
    (broadcastInDim S75x75 ![0, 1] bcast_S1x75_S75x75_0_1 (broadcastInDim S1x75 ![1] bcast_S75_S1x75_1 (iotaInDim S75 32 0)))

/-- Row p, column j: the slot number p where slot p writes column j, else -1. -/
def maskedRow (V : IVec S25x3 32) : IVec S75x75 32 :=
  select (hitMask V)
    (broadcastInDim S75x75 ![0, 1] bcast_S75x1_S75x75_0_1 (broadcastInDim S75x1 ![0] bcast_S75_S75x1_0 (iotaInDim S75 32 0)))
    (broadcastInDim S75x75 ![] bcast_S_S75x75 (constantI S_ 32 4294967295#32))

/-- Column j: the last slot that writes column j (the signed maximum down the rows), -1 when none does. -/
def lastRow (V : IVec S25x3 32) : IVec S75 32 :=
  Host.reduce IntOp.maxsi (maskedRow V) (constantI S_ 32 2147483648#32) reducesTo_S75x75_S75_d0 h_S_

/-- The last-write-wins scatter matrix, as floats: 1 where slot p writes column j and is the last to, else 0. -/
def lastMat (V : IVec S25x3 32) : FVec F S75x75 .f32 :=
  uitofp .f32 (andi (hitMask V)
    (cmpi .eq
      (broadcastInDim S75x75 ![0, 1] bcast_S75x1_S75x75_0_1 (broadcastInDim S75x1 ![0] bcast_S75_S75x1_0 (iotaInDim S75 32 0)))
      (broadcastInDim S75x75 ![0, 1] bcast_S1x75_S75x75_0_1 (broadcastInDim S1x75 ![1] bcast_S75_S1x75_1 (lastRow V)))))

/-- The selection matrix: row f, column q is 1 exactly when the flattened gather table names column f at slot q. -/
def selMat (K : IVec S25x15 32) : FVec F S160x375 .f32 :=
  uitofp .f32 (cmpi .eq
    (broadcastInDim S160x375 ![0, 1] bcast_S160x1_S160x375_0_1 (broadcastInDim S160x1 ![0] bcast_S160_S160x1_0 (iotaInDim S160 32 0)))
    (broadcastInDim S160x375 ![0, 1] bcast_S1x375_S160x375_0_1 (broadcastInDim S1x375 ![1] bcast_S375_S1x375_1 (shapeCast _ K shapeCasts_S25x15_S375))))

/-- The 25 x 25 identity, as floats. -/
def eyeG : FVec F S25x25 .f32 :=
  uitofp .f32 (cmpi .eq (addi (iotaInDim S25x25 32 0) (broadcastInDim S25x25 ![] bcast_S_S25x25 (constantI S_ 32 0#32))) (iotaInDim S25x25 32 1))

/-- The block-diagonal weight: row (g, i), column (g', c) is eye[g, g'] * W[c, i]. -/
def blockW (W : FVec F S3x15 .f32) : FVec F S375x75 .f32 :=
  shapeCast _ (mulf
    (broadcastInDim S25x15x25x3 ![0, 1, 2, 3] bcast_S25x1x25x1_S25x15x25x3_0_1_2_3 (broadcastInDim S25x1x25x1 ![0, 2] bcast_S25x25_S25x1x25x1_0_2 (eyeG (F := F))))
    (broadcastInDim S25x15x25x3 ![0, 1, 2, 3] bcast_S1x15x1x3_S25x15x25x3_0_1_2_3 (broadcastInDim S1x15x1x3 ![1, 3] bcast_S15x3_S1x15x1x3_1_3 (transpose S15x3 [1, 0] W transposes_S3x15_S15x3_1_0))))
    shapeCasts_S25x15x25x3_S375x75

/-- The fused weight from a scatter matrix P: selMat K · (blockW W · P). -/
def fusedM (W : FVec F S3x15 .f32) (K : IVec S25x15 32) (P : FVec F S75x75 .f32) : FVec F S160x75 .f32 :=
  Host.dotGeneral dot_S160x375_S375x75_S160x75_1_0_0_1_n_n (some .fp32) (selMat (F := F) K)
    (Host.dotGeneral dot_S375x75_S75x75_S375x75_1_0_0_1_n_n (some .fp32) (blockW W) P)

/-- The fused bias from a scatter matrix P: the bias repeated over the 25 groups, as a row, times P. -/
def fusedB (b : FVec F S3 .f32) (P : FVec F S75x75 .f32) : FVec F S1x75 .f32 :=
  shapeCast _ (shapeCast _ (Host.dotGeneral dot_S1x75_S75x75_S1x75_1_0_0_1_n_n (some .fp32)
    (broadcastInDim S1x75 ![1] bcast_S75_S1x75_1
      (shapeCast _ (broadcastInDim S25x3 ![0, 1] bcast_S1x3_S25x3_0_1 (shapeCast _ b shapeCasts_S3_S1x3)) shapeCasts_S25x3_S75))
    P) shapeCasts_S1x75_S75) shapeCasts_S75_S1x75

end Cert.KernelIdeal.HostTerms

end
-- ==== Proof.HostVals.lean ====
/-
  What the region finds in the two small operands of the pallas_call: the fused weight and the fused bias row, each the
  host-side terms of HostTerms applied to the launch contents of W, b, K and V.
-/
import proofs.«420357_j73778948210890_3_alg».proof.Proof.Gen.KernelIdeal.Frame
import proofs.«420357_j73778948210890_3_alg».proof.Proof.HostTerms
import Idealize.ShloMosaic.Lib.StableHlo.Run

noncomputable section

namespace Cert.KernelIdeal.HostVals

open Cert.KernelIdeal Cert.KernelIdeal.Gen Cert.KernelIdeal.HostTerms Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The weight operand of the call is the fused weight of the launch's W, K and V. -/
theorem V_weight (c : Dev nD) :
    (V m c main_call0_v39 : FVec F S160x75 .f32)
      = fusedM (m ((c : Thread nD τ).loc main_arg1)) (m ((c : Thread nD τ).loc main_arg3)) (lastMat (m ((c : Thread nD τ).loc main_arg4))) := by
  show StableHlo.after hostOps0 (fun b => m (c, b)) (Proc.devRef .tc main_call0_v39) = _
  unfold hostOps0
  after_results_simp
  rfl

set_option maxHeartbeats 4000000 in
/-- The bias operand of the call is the fused bias row of the launch's b and V. -/
theorem V_bias (c : Dev nD) :
    (V m c main_call0_v46 : FVec F S1x75 .f32)
      = fusedB (m ((c : Thread nD τ).loc main_arg2)) (lastMat (m ((c : Thread nD τ).loc main_arg4))) := by
  show StableHlo.after hostOps0 (fun b => m (c, b)) (Proc.devRef .tc main_call0_v46) = _
  unfold hostOps0
  after_results_simp
  rfl

end Cert.KernelIdeal.HostVals

end
-- ==== Proof.LastMat.lean ====
/-
  The last-write-wins scatter matrix read at an entry.
-/
import proofs.«420357_j73778948210890_3_alg».proof.Proof.HostTerms
import proofs.«420357_j73778948210890_3_alg».proof.Proof.Spec
import Idealize.ShloMosaic.Lib.StableHlo.Predicate
import Idealize.ShloMosaic.Lib.IdealHost
import Idealize.ShloMosaic.Lib.Pipeline.Value
import Mathlib.Data.Finset.Fold

noncomputable section

namespace Cert.KernelIdeal.HostTerms

open Cert.KernelIdeal Idealize.ShloMosaic Idealize.ShloMosaic.ValueIdx Cert.Spec
open Cert.KernelIdeal.Facts₀ Idealize.ShloMosaic.StableHlo.Predicate

/-! ## Signed maxima as integers -/

/-- The signed maximum of two words has the larger of the two signed values. -/
theorem toInt_maxsi (a b : BitVec 32) : (IntOp.maxsi a b).toInt = max a.toInt b.toInt := by
  unfold IntOp.maxsi
  by_cases h : b.slt a = true
  · rw [if_pos h]
    have hlt : b.toInt < a.toInt := by simpa [BitVec.slt] using h
    exact (max_eq_left hlt.le).symm
  · rw [if_neg h]
    have hlt : ¬ b.toInt < a.toInt := by simpa [BitVec.slt] using h
    exact (max_eq_right (not_lt.1 hlt)).symm

/-- A set fold of the signed maximum has, as signed value, the fold of the integer maximum over the signed values. -/
theorem toInt_fold_maxsi {ι : Type} (S : Finset ι) (f : ι → BitVec 32) (init : BitVec 32) :
    (S.fold IntOp.maxsi init f).toInt = S.fold max init.toInt (fun i => (f i).toInt) := by
  induction S using Finset.cons_induction with
  | empty => rfl
  | cons a S ha ih => rw [Finset.fold_cons, Finset.fold_cons, toInt_maxsi, ih]

/-! ## The integer arrays at an entry -/

/-- Slot p of the flattened table holds the number Vn p. -/
theorem flatV_apply [Cert.KernelIdeal.Facts] (V : IVec S25x3 32) (Vn : Fin 75 → Fin 75) (hV : VIs V Vn) (p : Fin 75) :
    flatV V (ix1 p) = BitVec.ofNat 32 (Vn p).val := by
  unfold flatV
  refine (shapeCast_apply V shapeCasts_S25x3_S75 (ix1 p) (ix2 (grp p) (cls p)) ?_).trans (hV p)
  rewrite [Shape.rowMajor_val_two, Shape.rowMajor_val_one]
  have hp : p.val < 75 := p.isLt
  show p.val / 3 * 3 + p.val % 3 = p.val
  omega

/-- A vector laid down the rows of the square (constant along each row) reads, at (p, j), the vector at p. -/
theorem bcastRows_apply [Cert.KernelIdeal.Facts] {α : Type} (v : S75.Idx → α) (p j : Fin 75) :
    broadcastInDim S75x75 ![0, 1] bcast_S75x1_S75x75_0_1 (broadcastInDim S75x1 ![0] bcast_S75_S75x1_0 v) (ix2 p j) = v (ix1 p) := by
  refine (broadcastInDim_apply _ bcast_S75x1_S75x75_0_1 _ (ix2 p j) (ix2 p (0 : Fin 1)) (fun a => match a with
    | ⟨0, _⟩ => by show p.val = if (75 : Nat) = 1 then 0 else p.val; rw [if_neg (by decide)]
    | ⟨1, _⟩ => by show 0 = if (1 : Nat) = 1 then 0 else j.val; rw [if_pos rfl])).trans ?_
  exact broadcastInDim_apply _ bcast_S75_S75x1_0 v (ix2 p (0 : Fin 1)) (ix1 p) (fun a => match a with
    | ⟨0, _⟩ => by show p.val = if (75 : Nat) = 1 then 0 else p.val; rw [if_neg (by decide)])

/-- A vector laid along the columns of the square (constant down each column) reads, at (p, j), the vector at j. -/
theorem bcastCols_apply [Cert.KernelIdeal.Facts] {α : Type} (v : S75.Idx → α) (p j : Fin 75) :
    broadcastInDim S75x75 ![0, 1] bcast_S1x75_S75x75_0_1 (broadcastInDim S1x75 ![1] bcast_S75_S1x75_1 v) (ix2 p j) = v (ix1 j) := by
  refine (broadcastInDim_apply _ bcast_S1x75_S75x75_0_1 _ (ix2 p j) (ix2 (0 : Fin 1) j) (fun a => match a with
    | ⟨0, _⟩ => by show 0 = if (1 : Nat) = 1 then 0 else p.val; rw [if_pos rfl]
    | ⟨1, _⟩ => by show j.val = if (75 : Nat) = 1 then 0 else j.val; rw [if_neg (by decide)])).trans ?_
  exact broadcastInDim_apply _ bcast_S75_S1x75_1 v (ix2 (0 : Fin 1) j) (ix1 j) (fun a => match a with
    | ⟨0, _⟩ => by show j.val = if (75 : Nat) = 1 then 0 else j.val; rw [if_neg (by decide)])

/-- Slot p writes column j exactly when its table entry is j. -/
theorem hitMask_eq_one_iff [Cert.KernelIdeal.Facts] (V : IVec S25x3 32) (Vn : Fin 75 → Fin 75) (hV : VIs V Vn) (p j : Fin 75) :
    hitMask V (ix2 p j) = 1#1 ↔ Vn p = j := by
  have e : hitMask V (ix2 p j) = IntOp.cmpi .eq (BitVec.ofNat 32 (Vn p).val) (BitVec.ofNat 32 j.val) := by
    unfold hitMask
    show IntOp.cmpi .eq _ _ = _
    rw [bcastRows_apply, bcastCols_apply, flatV_apply V Vn hV p]
    rfl
  rw [e, cmpi_eq_iff]
  constructor
  · intro h
    have h2 := congrArg BitVec.toNat h
    simp only [BitVec.toNat_ofNat] at h2
    have h1 := (Vn p).isLt
    have h3 := j.isLt
    exact Fin.ext (by omega)
  · intro h; rw [h]

/-- Row p, column j of the masked slot numbers: p where slot p writes column j, otherwise the word of -1. -/
theorem maskedRow_apply [Cert.KernelIdeal.Facts] (V : IVec S25x3 32) (Vn : Fin 75 → Fin 75) (hV : VIs V Vn) (p j : Fin 75) :
    maskedRow V (ix2 p j) = if Vn p = j then BitVec.ofNat 32 p.val else 4294967295#32 := by
  unfold maskedRow
  show Scalar.select (hitMask V (ix2 p j)) _ _ = _
  rw [bcastRows_apply]
  by_cases h : Vn p = j
  · rw [(hitMask_eq_one_iff V Vn hV p j).2 h, if_pos h, select_one]; rfl
  · rw [eq_zero_of_ne_one (fun hh => h ((hitMask_eq_one_iff V Vn hV p j).1 hh)), if_neg h, select_zero]
    exact (broadcastInDim_apply _ bcast_S_S75x75 _ (ix2 p j) ix0 (fun a => a.elim0))

/-- The signed value of a masked slot number: p where slot p writes column j, otherwise -1. -/
theorem toInt_maskedRow [Cert.KernelIdeal.Facts] (V : IVec S25x3 32) (Vn : Fin 75 → Fin 75) (hV : VIs V Vn) (p j : Fin 75) :
    (maskedRow V (ix2 p j)).toInt = if Vn p = j then (p.val : ℤ) else -1 := by
  rw [maskedRow_apply V Vn hV p j]
  by_cases h : Vn p = j
  · rw [if_pos h, if_pos h]
    have hp := p.isLt
    exact toInt_ofNat_small p.val (by omega)
  · rw [if_neg h, if_neg h]; decide

/-- The source entries that the column reduction folds into column j are the entries of column j. -/
theorem drop_eq_iff [Cert.KernelIdeal.Facts] (i : S75x75.Idx) (j : Fin 75) :
    reducesTo_S75x75_S75_d0.drop i = ix1 j ↔ i 1 = j := by
  have hv : (reducesTo_S75x75_S75_d0.drop i 0 : Nat) = i 1 := Shape.ReducesTo.drop_apply_val reducesTo_S75x75_S75_d0 i 0
  constructor
  · intro e; rw [e] at hv; exact Fin.ext hv.symm
  · intro e; funext b; have hb : b = 0 := Subsingleton.elim _ _; subst hb; exact Fin.ext (by rw [hv, e])

/-- The signed value of the column maximum: the integer maximum, from the least word, of the signed masked slot
    numbers down column j. -/
theorem toInt_lastRow [Cert.KernelIdeal.Facts] (V : IVec S25x3 32) (j : Fin 75) :
    (lastRow V (ix1 j)).toInt
      = (Finset.univ.filter fun i : S75x75.Idx => reducesTo_S75x75_S75_d0.drop i = ix1 j).fold max (-2147483648 : ℤ)
          (fun i => (maskedRow V i).toInt) := by
  unfold lastRow
  rw [Host.reduce_eq_fold, toInt_fold_maxsi]
  rfl

/-- With slot p writing column j: p is the column maximum exactly when no later slot writes column j. -/
theorem lastRow_eq_iff [Cert.KernelIdeal.Facts] (V : IVec S25x3 32) (Vn : Fin 75 → Fin 75) (hV : VIs V Vn) (p j : Fin 75)
    (hp : Vn p = j) : BitVec.ofNat 32 p.val = lastRow V (ix1 j) ↔ ∀ p' : Fin 75, Vn p' = j → p' ≤ p := by
  have hpi : (BitVec.ofNat 32 p.val).toInt = (p.val : ℤ) := toInt_ofNat_small p.val (by have := p.isLt; omega)
  have hmem : ∀ q : Fin 75, ix2 q j ∈ Finset.univ.filter (fun i : S75x75.Idx => reducesTo_S75x75_S75_d0.drop i = ix1 j) :=
    fun q => Finset.mem_filter.2 ⟨Finset.mem_univ _, (drop_eq_iff _ j).2 rfl⟩
  -- every slot that writes column j is at most the column maximum
  have hlow : ∀ q : Fin 75, Vn q = j → (q.val : ℤ) ≤ (lastRow V (ix1 j)).toInt := by
    intro q hq
    rw [toInt_lastRow]
    refine (Finset.le_fold_max _).2 (Or.inr ⟨ix2 q j, hmem q, ?_⟩)
    show _ ≤ (maskedRow V (ix2 q j)).toInt
    rw [toInt_maskedRow V Vn hV q j, if_pos hq]
  constructor
  · intro h p' hp'
    have hL : (lastRow V (ix1 j)).toInt = (p.val : ℤ) := by rw [← h, hpi]
    have hle := hlow p' hp'
    rw [hL] at hle
    exact Fin.le_def.2 (by exact_mod_cast hle)
  · intro h
    apply BitVec.eq_of_toInt_eq
    rw [hpi]
    apply le_antisymm (hlow p hp)
    rw [toInt_lastRow]
    refine (Finset.fold_max_le _).2 ⟨by omega, fun i hi => ?_⟩
    have hi1 : i 1 = j := (drop_eq_iff i j).1 (Finset.mem_filter.1 hi).2
    have hi2 : i = ix2 (⟨(i 0).val, idx2_lt0 i⟩ : Fin 75) j := by
      funext a; match a with
      | ⟨0, _⟩ => rfl
      | ⟨1, _⟩ => exact hi1
    show (maskedRow V i).toInt ≤ _
    rw [hi2, toInt_maskedRow V Vn hV _ j]
    split
    · next hq => have h2 := Fin.le_def.1 (h _ hq); exact_mod_cast h2
    · omega

theorem lastMat_apply [Cert.KernelIdeal.Facts] (V : IVec S25x3 32) (Vn : Fin 75 → Fin 75) (hV : VIs V Vn) (p j : Fin 75) :
    lastMat (F := Ideal) V (ix2 p j) = if wins Vn p j then (1 : EReal) else 0 := by
  -- the entry is the conjunction bit of "slot p writes column j" and "p is the column maximum", read as a number
  have e : lastMat (F := Ideal) V (ix2 p j)
      = (((IntOp.andi (hitMask V (ix2 p j)) (IntOp.cmpi .eq (BitVec.ofNat 32 p.val) (lastRow V (ix1 j)))).toNat : ℝ) : EReal) := by
    unfold lastMat
    show (((IntOp.andi (hitMask V (ix2 p j)) (IntOp.cmpi .eq _ _)).toNat : ℝ) : EReal) = _
    rw [bcastRows_apply, bcastCols_apply]
    rfl
  rw [e]
  by_cases hw : wins Vn p j
  · rw [if_pos hw, (hitMask_eq_one_iff V Vn hV p j).2 hw.1, cmpi_eq_iff.2 ((lastRow_eq_iff V Vn hV p j hw.1).2 hw.2)]
    show (((1 : ℕ) : ℝ) : EReal) = 1
    simp
  · rw [if_neg hw]
    have hz : IntOp.andi (hitMask V (ix2 p j)) (IntOp.cmpi .eq (BitVec.ofNat 32 p.val) (lastRow V (ix1 j))) = 0#1 := by
      by_cases hh : hitMask V (ix2 p j) = 1#1
      · have hp : Vn p = j := (hitMask_eq_one_iff V Vn hV p j).1 hh
        have hc : ¬ IntOp.cmpi .eq (BitVec.ofNat 32 p.val) (lastRow V (ix1 j)) = 1#1 := fun hc =>
          hw ⟨hp, (lastRow_eq_iff V Vn hV p j hp).1 (cmpi_eq_iff.1 hc)⟩
        rw [eq_zero_of_ne_one hc]
        exact BitVec.and_zero
      · rw [eq_zero_of_ne_one hh]
        exact BitVec.zero_and
    rw [hz]
    show (((0 : ℕ) : ℝ) : EReal) = 0
    simp

end Cert.KernelIdeal.HostTerms

end
-- ==== Proof.FusedApply.lean ====
/-
  The fused weight and the fused bias row read at an entry, as sums.
-/
import proofs.«420357_j73778948210890_3_alg».proof.Proof.HostTerms
import proofs.«420357_j73778948210890_3_alg».proof.Proof.Spec
import Idealize.ShloMosaic.Lib.Pipeline.Value
import Idealize.ShloMosaic.Lib.ValueLayout
import Idealize.ShloMosaic.Lib.ValueIdx
import Idealize.ShloMosaic.Lib.IdealHost
import Idealize.ShloMosaic.Lib.StableHlo.Predicate
import Idealize.ShloMosaic.PureOps.Ideal.Laws

noncomputable section

namespace Cert.KernelIdeal.HostTerms

open Cert.KernelIdeal Idealize.ShloMosaic Idealize.ShloMosaic.ValueIdx Cert.Spec
open Cert.KernelIdeal.Facts₀

/-! ### Words and bits -/

/-- The float of the one-bit answer to "are these two small numbers equal" is 1 or 0. -/
theorem eqBit_float (a b : ℕ) (ha : a < 2 ^ 32) (hb : b < 2 ^ 32) :
    (FloatOps.uitofp (F := Ideal) .f32 (IntOp.cmpi .eq (BitVec.ofNat 32 a) (BitVec.ofNat 32 b)) : EReal)
      = if a = b then (1 : EReal) else 0 := by
  by_cases h : a = b
  · rw [if_pos h, StableHlo.Predicate.cmpi_eq_iff.2 (by rw [h])]
    show (((1#1 : BitVec 1).toNat : ℝ) : EReal) = 1
    norm_num
  · have hne : ¬ IntOp.cmpi .eq (BitVec.ofNat 32 a) (BitVec.ofNat 32 b) = 1#1 := by
      intro hc
      have e := congrArg BitVec.toNat (StableHlo.Predicate.cmpi_eq_iff.1 hc)
      rw [BitVec.toNat_ofNat, BitVec.toNat_ofNat, Nat.mod_eq_of_lt ha, Nat.mod_eq_of_lt hb] at e
      exact h e
    rw [if_neg h, eq_zero_of_ne_one hne]
    show (((0#1 : BitVec 1).toNat : ℝ) : EReal) = 0
    norm_num

/-! ### The selection matrix -/

/-- The flattened gather table: slot q = 15 g + k holds K[g, k]. -/
theorem flatK_apply [Cert.KernelIdeal.Facts] (K : IVec S25x15 32) (q : Fin 375) :
    shapeCast S375 K shapeCasts_S25x15_S375 (ix1 q) = K (ix2 (qgrp q) (qpos q)) :=
  shapeCast_apply K shapeCasts_S25x15_S375 (ix1 q) (ix2 (qgrp q) (qpos q))
    (by rewrite [Shape.rowMajor_val_two, Shape.rowMajor_val_one]; show q.val / 15 * 15 + q.val % 15 = q.val; omega)

/-- Row f, column q of the selection matrix: 1 exactly when slot q of the gather table names input column f. -/
theorem selMat_apply [Cert.KernelIdeal.Facts] (K : IVec S25x15 32) (Kn : Fin 25 → Fin 15 → Fin 160) (hK : KIs K Kn)
    (f : Fin 160) (q : Fin 375) :
    selMat (F := Ideal) K (ix2 f q) = if Kn (qgrp q) (qpos q) = f then (1 : EReal) else 0 := by
  have hA : (broadcastInDim S160x375 ![0, 1] bcast_S160x1_S160x375_0_1
      (broadcastInDim S160x1 ![0] bcast_S160_S160x1_0 (iotaInDim S160 32 0))) (ix2 f q) = BitVec.ofNat 32 f.val := by
    refine (broadcastInDim_apply _ bcast_S160x1_S160x375_0_1 _ (ix2 f q) (ix2 f (0 : Fin 1)) (fun a => match a with
      | ⟨0, _⟩ => by show f.val = if (160 : Nat) = 1 then 0 else f.val; rw [if_neg (by decide)]
      | ⟨1, _⟩ => by show 0 = if (1 : Nat) = 1 then 0 else q.val; rw [if_pos rfl])).trans ?_
    refine (broadcastInDim_apply _ bcast_S160_S160x1_0 _ (ix2 f (0 : Fin 1)) (ix1 f) (fun a => match a with
      | ⟨0, _⟩ => by show f.val = if (160 : Nat) = 1 then 0 else f.val; rw [if_neg (by decide)])).trans ?_
    rfl
  have hB : (broadcastInDim S160x375 ![0, 1] bcast_S1x375_S160x375_0_1
      (broadcastInDim S1x375 ![1] bcast_S375_S1x375_1 (shapeCast S375 K shapeCasts_S25x15_S375))) (ix2 f q)
        = BitVec.ofNat 32 (Kn (qgrp q) (qpos q)).val := by
    refine (broadcastInDim_apply _ bcast_S1x375_S160x375_0_1 _ (ix2 f q) (ix2 (0 : Fin 1) q) (fun a => match a with
      | ⟨0, _⟩ => by show 0 = if (1 : Nat) = 1 then 0 else f.val; rw [if_pos rfl]
      | ⟨1, _⟩ => by show q.val = if (375 : Nat) = 1 then 0 else q.val; rw [if_neg (by decide)])).trans ?_
    refine (broadcastInDim_apply _ bcast_S375_S1x375_1 _ (ix2 (0 : Fin 1) q) (ix1 q) (fun a => match a with
      | ⟨0, _⟩ => by show q.val = if (375 : Nat) = 1 then 0 else q.val; rw [if_neg (by decide)])).trans ?_
    rw [flatK_apply]
    exact hK _ _
  show FloatOps.uitofp (F := Ideal) .f32 (IntOp.cmpi .eq
      ((broadcastInDim S160x375 ![0, 1] bcast_S160x1_S160x375_0_1
        (broadcastInDim S160x1 ![0] bcast_S160_S160x1_0 (iotaInDim S160 32 0))) (ix2 f q))
      ((broadcastInDim S160x375 ![0, 1] bcast_S1x375_S160x375_0_1
        (broadcastInDim S1x375 ![1] bcast_S375_S1x375_1 (shapeCast S375 K shapeCasts_S25x15_S375))) (ix2 f q))) = _
  rw [hA, hB, eqBit_float _ _ (by have := f.isLt; omega) (by have := (Kn (qgrp q) (qpos q)).isLt; omega)]
  by_cases h : Kn (qgrp q) (qpos q) = f
  · rw [if_pos h, if_pos (by rw [h])]
  · rw [if_neg h, if_neg (fun e => h (Fin.ext e.symm))]

/-! ### The block-diagonal weight -/

/-- The 25 x 25 identity at an entry. -/
theorem eyeG_apply [Cert.KernelIdeal.Facts] (g g' : Fin 25) :
    eyeG (F := Ideal) (ix2 g g') = if g = g' then (1 : EReal) else 0 := by
  have h0 : (broadcastInDim S25x25 ![] bcast_S_S25x25 (constantI S_ 32 0#32)) (ix2 g g') = 0#32 :=
    broadcastInDim_scalar_apply bcast_S_S25x25 _ _
  show FloatOps.uitofp (F := Ideal) .f32 (IntOp.cmpi .eq
      (IntOp.addi (BitVec.ofNat 32 g.val) ((broadcastInDim S25x25 ![] bcast_S_S25x25 (constantI S_ 32 0#32)) (ix2 g g')))
      (BitVec.ofNat 32 g'.val)) = _
  rw [h0]
  show FloatOps.uitofp (F := Ideal) .f32 (IntOp.cmpi .eq (BitVec.ofNat 32 g.val + 0#32) (BitVec.ofNat 32 g'.val)) = _
  rw [BitVec.add_zero, eqBit_float _ _ (by have := g.isLt; omega) (by have := g'.isLt; omega)]
  by_cases h : g = g'
  · rw [if_pos h, if_pos (by rw [h])]
  · rw [if_neg h, if_neg (fun e => h (Fin.ext e))]

/-- Row q = 15 g + k, column p = 3 g' + c of the block-diagonal weight: [g = g'] * W[c, k]. -/
theorem blockW_apply [Cert.KernelIdeal.Facts] (W : FVec Ideal S3x15 .f32) (q : Fin 375) (p : Fin 75) :
    blockW (F := Ideal) W (ix2 q p)
      = (if qgrp q = grp p then (1 : EReal) else 0) * W (ix2 (cls p) (qpos q)) := by
  have hA : (broadcastInDim S25x15x25x3 ![0, 1, 2, 3] bcast_S25x1x25x1_S25x15x25x3_0_1_2_3
      (broadcastInDim S25x1x25x1 ![0, 2] bcast_S25x25_S25x1x25x1_0_2 (eyeG (F := Ideal))))
        (ix4 (qgrp q) (qpos q) (grp p) (cls p)) = if qgrp q = grp p then (1 : EReal) else 0 := by
    refine (broadcastInDim_apply _ bcast_S25x1x25x1_S25x15x25x3_0_1_2_3 _ (ix4 (qgrp q) (qpos q) (grp p) (cls p))
      (ix4 (qgrp q) (0 : Fin 1) (grp p) (0 : Fin 1)) (fun a => match a with
      | ⟨0, _⟩ => by show (qgrp q).val = if (25 : Nat) = 1 then 0 else (qgrp q).val; rw [if_neg (by decide)]
      | ⟨1, _⟩ => by show 0 = if (1 : Nat) = 1 then 0 else (qpos q).val; rw [if_pos rfl]
      | ⟨2, _⟩ => by show (grp p).val = if (25 : Nat) = 1 then 0 else (grp p).val; rw [if_neg (by decide)]
      | ⟨3, _⟩ => by show 0 = if (1 : Nat) = 1 then 0 else (cls p).val; rw [if_pos rfl])).trans ?_
    refine (broadcastInDim_apply _ bcast_S25x25_S25x1x25x1_0_2 _ (ix4 (qgrp q) (0 : Fin 1) (grp p) (0 : Fin 1))
      (ix2 (qgrp q) (grp p)) (fun a => match a with
      | ⟨0, _⟩ => by show (qgrp q).val = if (25 : Nat) = 1 then 0 else (qgrp q).val; rw [if_neg (by decide)]
      | ⟨1, _⟩ => by show (grp p).val = if (25 : Nat) = 1 then 0 else (grp p).val; rw [if_neg (by decide)])).trans ?_
    exact eyeG_apply _ _
  have hB : (broadcastInDim S25x15x25x3 ![0, 1, 2, 3] bcast_S1x15x1x3_S25x15x25x3_0_1_2_3
      (broadcastInDim S1x15x1x3 ![1, 3] bcast_S15x3_S1x15x1x3_1_3 (transpose S15x3 [1, 0] W transposes_S3x15_S15x3_1_0)))
        (ix4 (qgrp q) (qpos q) (grp p) (cls p)) = W (ix2 (cls p) (qpos q)) := by
    refine (broadcastInDim_apply _ bcast_S1x15x1x3_S25x15x25x3_0_1_2_3 _ (ix4 (qgrp q) (qpos q) (grp p) (cls p))
      (ix4 (0 : Fin 1) (qpos q) (0 : Fin 1) (cls p)) (fun a => match a with
      | ⟨0, _⟩ => by show 0 = if (1 : Nat) = 1 then 0 else (qgrp q).val; rw [if_pos rfl]
      | ⟨1, _⟩ => by show (qpos q).val = if (15 : Nat) = 1 then 0 else (qpos q).val; rw [if_neg (by decide)]
      | ⟨2, _⟩ => by show 0 = if (1 : Nat) = 1 then 0 else (grp p).val; rw [if_pos rfl]
      | ⟨3, _⟩ => by show (cls p).val = if (3 : Nat) = 1 then 0 else (cls p).val; rw [if_neg (by decide)])).trans ?_
    refine (broadcastInDim_apply _ bcast_S15x3_S1x15x1x3_1_3 _ (ix4 (0 : Fin 1) (qpos q) (0 : Fin 1) (cls p))
      (ix2 (qpos q) (cls p)) (fun a => match a with
      | ⟨0, _⟩ => by show (qpos q).val = if (15 : Nat) = 1 then 0 else (qpos q).val; rw [if_neg (by decide)]
      | ⟨1, _⟩ => by show (cls p).val = if (3 : Nat) = 1 then 0 else (cls p).val; rw [if_neg (by decide)])).trans ?_
    exact transpose_ix2_apply W transposes_S3x15_S15x3_1_0 (qpos q) (cls p)
  unfold blockW
  refine (shapeCast_apply _ shapeCasts_S25x15x25x3_S375x75 (ix2 q p) (ix4 (qgrp q) (qpos q) (grp p) (cls p))
    (by rewrite [Shape.rowMajor_val_four, Shape.rowMajor_val_two]
        show ((q.val / 15 * 15 + q.val % 15) * 25 + p.val / 3) * 3 + p.val % 3 = q.val * 75 + p.val
        omega)).trans ?_
  rw [mulf_apply, hA, hB]

/-! ### The three matrix products at an entry -/

theorem lhs_WP_0 [Cert.KernelIdeal.Facts] (i : S375x75.Idx) (q : dot_S375x75_S75x75_S375x75_1_0_0_1_n_n.contr.Idx) :
    (dot_S375x75_S75x75_S375x75_1_0_0_1_n_n.lhsIdx i q 0).val = (i 0).val := by
  unfold DotDims.lhsIdx
  rw [dif_neg (show ¬(0 : Fin S375x75.rank) ∈ dot_S375x75_S75x75_S375x75_1_0_0_1_n_n.lhsBatch from List.not_mem_nil),
    dif_pos (show (0 : Fin S375x75.rank) ∈ dot_S375x75_S75x75_S375x75_1_0_0_1_n_n.lhsNonContracting from List.mem_singleton.2 rfl)]
  rfl
theorem lhs_WP_1 [Cert.KernelIdeal.Facts] (i : S375x75.Idx) (q : dot_S375x75_S75x75_S375x75_1_0_0_1_n_n.contr.Idx) :
    (dot_S375x75_S75x75_S375x75_1_0_0_1_n_n.lhsIdx i q 1).val = (q ⟨0, Nat.one_pos⟩).val :=
  dot_S375x75_S75x75_S375x75_1_0_0_1_n_n.lhsIdx_val_of_single rfl i q
theorem rhs_WP_0 [Cert.KernelIdeal.Facts] (i : S375x75.Idx) (q : dot_S375x75_S75x75_S375x75_1_0_0_1_n_n.contr.Idx) :
    (dot_S375x75_S75x75_S375x75_1_0_0_1_n_n.rhsIdx i q 0).val = (q ⟨0, Nat.one_pos⟩).val :=
  dot_S375x75_S75x75_S375x75_1_0_0_1_n_n.rhsIdx_val_of_single rfl i q
theorem rhs_WP_1 [Cert.KernelIdeal.Facts] (i : S375x75.Idx) (q : dot_S375x75_S75x75_S375x75_1_0_0_1_n_n.contr.Idx) :
    (dot_S375x75_S75x75_S375x75_1_0_0_1_n_n.rhsIdx i q 1).val = (i 1).val := by
  unfold DotDims.rhsIdx
  rw [dif_neg (show ¬(1 : Fin S75x75.rank) ∈ dot_S375x75_S75x75_S375x75_1_0_0_1_n_n.rhsBatch from List.not_mem_nil),
    dif_pos (show (1 : Fin S75x75.rank) ∈ dot_S375x75_S75x75_S375x75_1_0_0_1_n_n.rhsNonContracting from List.mem_singleton.2 rfl)]
  rfl
/-- A 375 x 75 matrix times a 75 x 75 matrix, at an entry: the sum over the 75 shared slots. -/
theorem dot_WP_apply [Cert.KernelIdeal.Facts] (l : FVec Ideal S375x75 .f32) (r : FVec Ideal S75x75 .f32) (a : Fin 375) (j : Fin 75) :
    Host.dotGeneral dot_S375x75_S75x75_S375x75_1_0_0_1_n_n (some .fp32) l r (ix2 a j) = ∑ k : Fin 75, l (ix2 a k) * r (ix2 k j) := by
  simp only [Host.dotGeneral]
  rw [Ideal.dotGeneral_apply, ← Equiv.sum_comp (contrEquiv1 dot_S375x75_S75x75_S375x75_1_0_0_1_n_n 75 rfl rfl).symm]
  refine Finset.sum_congr rfl fun k _ => ?_
  have hk := contrEquiv1_symm_val dot_S375x75_S75x75_S375x75_1_0_0_1_n_n 75 rfl rfl k
  have el : dot_S375x75_S75x75_S375x75_1_0_0_1_n_n.lhsIdx (ix2 a j) ((contrEquiv1 dot_S375x75_S75x75_S375x75_1_0_0_1_n_n 75 rfl rfl).symm k) = ix2 a k := funext fun x => Fin.ext (by
    match x with
    | ⟨0, _⟩ => exact lhs_WP_0 _ _
    | ⟨1, _⟩ => exact (lhs_WP_1 _ _).trans hk)
  have er : dot_S375x75_S75x75_S375x75_1_0_0_1_n_n.rhsIdx (ix2 a j) ((contrEquiv1 dot_S375x75_S75x75_S375x75_1_0_0_1_n_n 75 rfl rfl).symm k) = ix2 k j := funext fun x => Fin.ext (by
    match x with
    | ⟨0, _⟩ => exact (rhs_WP_0 _ _).trans hk
    | ⟨1, _⟩ => exact rhs_WP_1 _ _)
  rw [el, er]

theorem lhs_SM_0 [Cert.KernelIdeal.Facts] (i : S160x75.Idx) (q : dot_S160x375_S375x75_S160x75_1_0_0_1_n_n.contr.Idx) :
    (dot_S160x375_S375x75_S160x75_1_0_0_1_n_n.lhsIdx i q 0).val = (i 0).val := by
  unfold DotDims.lhsIdx
  rw [dif_neg (show ¬(0 : Fin S160x375.rank) ∈ dot_S160x375_S375x75_S160x75_1_0_0_1_n_n.lhsBatch from List.not_mem_nil),
    dif_pos (show (0 : Fin S160x375.rank) ∈ dot_S160x375_S375x75_S160x75_1_0_0_1_n_n.lhsNonContracting from List.mem_singleton.2 rfl)]
  rfl
theorem lhs_SM_1 [Cert.KernelIdeal.Facts] (i : S160x75.Idx) (q : dot_S160x375_S375x75_S160x75_1_0_0_1_n_n.contr.Idx) :
    (dot_S160x375_S375x75_S160x75_1_0_0_1_n_n.lhsIdx i q 1).val = (q ⟨0, Nat.one_pos⟩).val :=
  dot_S160x375_S375x75_S160x75_1_0_0_1_n_n.lhsIdx_val_of_single rfl i q
theorem rhs_SM_0 [Cert.KernelIdeal.Facts] (i : S160x75.Idx) (q : dot_S160x375_S375x75_S160x75_1_0_0_1_n_n.contr.Idx) :
    (dot_S160x375_S375x75_S160x75_1_0_0_1_n_n.rhsIdx i q 0).val = (q ⟨0, Nat.one_pos⟩).val :=
  dot_S160x375_S375x75_S160x75_1_0_0_1_n_n.rhsIdx_val_of_single rfl i q
theorem rhs_SM_1 [Cert.KernelIdeal.Facts] (i : S160x75.Idx) (q : dot_S160x375_S375x75_S160x75_1_0_0_1_n_n.contr.Idx) :
    (dot_S160x375_S375x75_S160x75_1_0_0_1_n_n.rhsIdx i q 1).val = (i 1).val := by
  unfold DotDims.rhsIdx
  rw [dif_neg (show ¬(1 : Fin S375x75.rank) ∈ dot_S160x375_S375x75_S160x75_1_0_0_1_n_n.rhsBatch from List.not_mem_nil),
    dif_pos (show (1 : Fin S375x75.rank) ∈ dot_S160x375_S375x75_S160x75_1_0_0_1_n_n.rhsNonContracting from List.mem_singleton.2 rfl)]
  rfl
/-- A 160 x 375 matrix times a 375 x 75 matrix, at an entry: the sum over the 375 gather slots. -/
theorem dot_SM_apply [Cert.KernelIdeal.Facts] (l : FVec Ideal S160x375 .f32) (r : FVec Ideal S375x75 .f32) (a : Fin 160) (j : Fin 75) :
    Host.dotGeneral dot_S160x375_S375x75_S160x75_1_0_0_1_n_n (some .fp32) l r (ix2 a j) = ∑ k : Fin 375, l (ix2 a k) * r (ix2 k j) := by
  simp only [Host.dotGeneral]
  rw [Ideal.dotGeneral_apply, ← Equiv.sum_comp (contrEquiv1 dot_S160x375_S375x75_S160x75_1_0_0_1_n_n 375 rfl rfl).symm]
  refine Finset.sum_congr rfl fun k _ => ?_
  have hk := contrEquiv1_symm_val dot_S160x375_S375x75_S160x75_1_0_0_1_n_n 375 rfl rfl k
  have el : dot_S160x375_S375x75_S160x75_1_0_0_1_n_n.lhsIdx (ix2 a j) ((contrEquiv1 dot_S160x375_S375x75_S160x75_1_0_0_1_n_n 375 rfl rfl).symm k) = ix2 a k := funext fun x => Fin.ext (by
    match x with
    | ⟨0, _⟩ => exact lhs_SM_0 _ _
    | ⟨1, _⟩ => exact (lhs_SM_1 _ _).trans hk)
  have er : dot_S160x375_S375x75_S160x75_1_0_0_1_n_n.rhsIdx (ix2 a j) ((contrEquiv1 dot_S160x375_S375x75_S160x75_1_0_0_1_n_n 375 rfl rfl).symm k) = ix2 k j := funext fun x => Fin.ext (by
    match x with
    | ⟨0, _⟩ => exact (rhs_SM_0 _ _).trans hk
    | ⟨1, _⟩ => exact rhs_SM_1 _ _)
  rw [el, er]

theorem lhs_BP_0 [Cert.KernelIdeal.Facts] (i : S1x75.Idx) (q : dot_S1x75_S75x75_S1x75_1_0_0_1_n_n.contr.Idx) :
    (dot_S1x75_S75x75_S1x75_1_0_0_1_n_n.lhsIdx i q 0).val = (i 0).val := by
  unfold DotDims.lhsIdx
  rw [dif_neg (show ¬(0 : Fin S1x75.rank) ∈ dot_S1x75_S75x75_S1x75_1_0_0_1_n_n.lhsBatch from List.not_mem_nil),
    dif_pos (show (0 : Fin S1x75.rank) ∈ dot_S1x75_S75x75_S1x75_1_0_0_1_n_n.lhsNonContracting from List.mem_singleton.2 rfl)]
  rfl
theorem lhs_BP_1 [Cert.KernelIdeal.Facts] (i : S1x75.Idx) (q : dot_S1x75_S75x75_S1x75_1_0_0_1_n_n.contr.Idx) :
    (dot_S1x75_S75x75_S1x75_1_0_0_1_n_n.lhsIdx i q 1).val = (q ⟨0, Nat.one_pos⟩).val :=
  dot_S1x75_S75x75_S1x75_1_0_0_1_n_n.lhsIdx_val_of_single rfl i q
theorem rhs_BP_0 [Cert.KernelIdeal.Facts] (i : S1x75.Idx) (q : dot_S1x75_S75x75_S1x75_1_0_0_1_n_n.contr.Idx) :
    (dot_S1x75_S75x75_S1x75_1_0_0_1_n_n.rhsIdx i q 0).val = (q ⟨0, Nat.one_pos⟩).val :=
  dot_S1x75_S75x75_S1x75_1_0_0_1_n_n.rhsIdx_val_of_single rfl i q
theorem rhs_BP_1 [Cert.KernelIdeal.Facts] (i : S1x75.Idx) (q : dot_S1x75_S75x75_S1x75_1_0_0_1_n_n.contr.Idx) :
    (dot_S1x75_S75x75_S1x75_1_0_0_1_n_n.rhsIdx i q 1).val = (i 1).val := by
  unfold DotDims.rhsIdx
  rw [dif_neg (show ¬(1 : Fin S75x75.rank) ∈ dot_S1x75_S75x75_S1x75_1_0_0_1_n_n.rhsBatch from List.not_mem_nil),
    dif_pos (show (1 : Fin S75x75.rank) ∈ dot_S1x75_S75x75_S1x75_1_0_0_1_n_n.rhsNonContracting from List.mem_singleton.2 rfl)]
  rfl
/-- A row of 75 times a 75 x 75 matrix, at an entry: the sum over the 75 slots. -/
theorem dot_BP_apply [Cert.KernelIdeal.Facts] (l : FVec Ideal S1x75 .f32) (r : FVec Ideal S75x75 .f32) (a : Fin 1) (j : Fin 75) :
    Host.dotGeneral dot_S1x75_S75x75_S1x75_1_0_0_1_n_n (some .fp32) l r (ix2 a j) = ∑ k : Fin 75, l (ix2 a k) * r (ix2 k j) := by
  simp only [Host.dotGeneral]
  rw [Ideal.dotGeneral_apply, ← Equiv.sum_comp (contrEquiv1 dot_S1x75_S75x75_S1x75_1_0_0_1_n_n 75 rfl rfl).symm]
  refine Finset.sum_congr rfl fun k _ => ?_
  have hk := contrEquiv1_symm_val dot_S1x75_S75x75_S1x75_1_0_0_1_n_n 75 rfl rfl k
  have el : dot_S1x75_S75x75_S1x75_1_0_0_1_n_n.lhsIdx (ix2 a j) ((contrEquiv1 dot_S1x75_S75x75_S1x75_1_0_0_1_n_n 75 rfl rfl).symm k) = ix2 a k := funext fun x => Fin.ext (by
    match x with
    | ⟨0, _⟩ => exact lhs_BP_0 _ _
    | ⟨1, _⟩ => exact (lhs_BP_1 _ _).trans hk)
  have er : dot_S1x75_S75x75_S1x75_1_0_0_1_n_n.rhsIdx (ix2 a j) ((contrEquiv1 dot_S1x75_S75x75_S1x75_1_0_0_1_n_n 75 rfl rfl).symm k) = ix2 k j := funext fun x => Fin.ext (by
    match x with
    | ⟨0, _⟩ => exact (rhs_BP_0 _ _).trans hk
    | ⟨1, _⟩ => exact rhs_BP_1 _ _)
  rw [el, er]

/-! ### The tiled bias row -/

/-- The bias repeated over the 25 groups, as a row: slot p = 3 g + c holds b[c]. -/
theorem tiledB_apply [Cert.KernelIdeal.Facts] (b : FVec Ideal S3 .f32) (p : Fin 75) :
    (broadcastInDim S1x75 ![1] bcast_S75_S1x75_1
      (shapeCast S75 (broadcastInDim S25x3 ![0, 1] bcast_S1x3_S25x3_0_1 (shapeCast S1x3 b shapeCasts_S3_S1x3)) shapeCasts_S25x3_S75))
        (ix2 (0 : Fin 1) p) = b (ix1 (cls p)) := by
  refine (broadcastInDim_apply _ bcast_S75_S1x75_1 _ (ix2 (0 : Fin 1) p) (ix1 p) (fun a => match a with
    | ⟨0, _⟩ => by show p.val = if (75 : Nat) = 1 then 0 else p.val; rw [if_neg (by decide)])).trans ?_
  refine (shapeCast_apply _ shapeCasts_S25x3_S75 (ix1 p) (ix2 (grp p) (cls p))
    (by rewrite [Shape.rowMajor_val_two, Shape.rowMajor_val_one]; show p.val / 3 * 3 + p.val % 3 = p.val; omega)).trans ?_
  refine (broadcastInDim_apply _ bcast_S1x3_S25x3_0_1 _ (ix2 (grp p) (cls p)) (ix2 (0 : Fin 1) (cls p)) (fun a => match a with
    | ⟨0, _⟩ => by show 0 = if (1 : Nat) = 1 then 0 else (grp p).val; rw [if_pos rfl]
    | ⟨1, _⟩ => by show (cls p).val = if (3 : Nat) = 1 then 0 else (cls p).val; rw [if_neg (by decide)])).trans ?_
  exact shapeCast_apply b shapeCasts_S3_S1x3 (ix2 (0 : Fin 1) (cls p)) (ix1 (cls p))
    (by rewrite [Shape.rowMajor_val_one, Shape.rowMajor_val_two]; show (cls p).val = 0 * 3 + (cls p).val; omega)

/-! ### The fused weight and the fused bias at an entry -/

theorem fusedM_apply [Cert.KernelIdeal.Facts] (W : FVec Ideal S3x15 .f32) (K : IVec S25x15 32) (P : FVec Ideal S75x75 .f32)
    (Kn : Fin 25 → Fin 15 → Fin 160) (hK : KIs K Kn) (f : Fin 160) (j : Fin 75) :
    fusedM (F := Ideal) W K P (ix2 f j)
      = ∑ q : Fin 375, (if Kn (qgrp q) (qpos q) = f then (1 : EReal) else 0)
          * ∑ p : Fin 75, ((if qgrp q = grp p then (1 : EReal) else 0) * W (ix2 (cls p) (qpos q))) * P (ix2 p j) := by
  unfold fusedM
  rw [dot_SM_apply]
  refine Finset.sum_congr rfl fun q _ => ?_
  rw [selMat_apply K Kn hK, dot_WP_apply]
  refine congrArg _ (Finset.sum_congr rfl fun p _ => ?_)
  rw [blockW_apply]

theorem fusedB_apply [Cert.KernelIdeal.Facts] (b : FVec Ideal S3 .f32) (P : FVec Ideal S75x75 .f32) (j : Fin 75) :
    fusedB (F := Ideal) b P (ix2 (0 : Fin 1) j) = ∑ p : Fin 75, b (ix1 (cls p)) * P (ix2 p j) := by
  unfold fusedB
  refine (shapeCast_apply _ shapeCasts_S75_S1x75 (ix2 (0 : Fin 1) j) (ix1 j)
    (by rewrite [Shape.rowMajor_val_one, Shape.rowMajor_val_two]; show j.val = 0 * 75 + j.val; omega)).trans ?_
  refine (shapeCast_apply _ shapeCasts_S1x75_S75 (ix1 j) (ix2 (0 : Fin 1) j)
    (by rewrite [Shape.rowMajor_val_two, Shape.rowMajor_val_one]; show 0 * 75 + j.val = j.val; omega)).trans ?_
  rw [dot_BP_apply]
  refine Finset.sum_congr rfl fun p _ => ?_
  rw [tiledB_apply]

end Cert.KernelIdeal.HostTerms

end
-- ==== Proof.Algebra.lean ====
/-
  The fused matrix product is the specification's output: a rearrangement of finite sums of real numbers.
-/
import proofs.«420357_j73778948210890_3_alg».proof.Proof.Spec

noncomputable section

namespace Cert.Algebra

open Idealize.ShloMosaic Idealize.ShloMosaic.ValueIdx Cert.Spec

/-! ### Real numbers inside the extended reals

The embedding of ℝ into the extended reals respects finite sums, indicators and the "value or zero" choice, so an
expression built from embedded reals by sums, products and indicators is the embedding of the same real expression. -/

/-- The embedding of ℝ commutes with finite sums. -/
private lemma coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An indicator in the extended reals is the embedded real indicator. -/
private lemma coe_ind (c : Prop) [Decidable c] :
    (if c then (1 : EReal) else 0) = ((if c then (1 : ℝ) else 0 : ℝ) : EReal) := by
  split_ifs <;> simp

/-- "The embedded value if c, else zero" is the embedding of "the value if c, else zero". -/
private lemma coe_ite_zero (c : Prop) [Decidable c] (a : ℝ) :
    ((if c then a else 0 : ℝ) : EReal) = if c then (a : EReal) else 0 := by
  split_ifs <;> simp

/-! ### Re-indexing the 375 gather slots as (group, position) pairs -/

/-- Gather slot q = 15 g + k corresponds to the pair (g, k). -/
private def qEquiv : Fin 375 ≃ Fin 25 × Fin 15 where
  toFun q := (qgrp q, qpos q)
  invFun gk := ⟨15 * gk.1.val + gk.2.val, by have := gk.1.isLt; have := gk.2.isLt; omega⟩
  left_inv q := by
    apply Fin.ext
    show 15 * (q.val / 15) + q.val % 15 = q.val
    omega
  right_inv gk := by
    obtain ⟨g, k⟩ := gk
    have hg := g.isLt
    have hk := k.isLt
    refine Prod.ext (Fin.ext ?_) (Fin.ext ?_)
    · show (15 * g.val + k.val) / 15 = g.val
      omega
    · show (15 * g.val + k.val) % 15 = k.val
      omega

/-- A sum over the gather slots of a function of (group, position) is the double sum over groups and positions. -/
private lemma sum_slots (F : Fin 25 → Fin 15 → ℝ) :
    ∑ q : Fin 375, F (qgrp q) (qpos q) = ∑ g : Fin 25, ∑ k : Fin 15, F g k := by
  rw [← Fintype.sum_prod_type']
  exact Fintype.sum_equiv qEquiv _ _ (fun _ => rfl)

/-- A sum against the indicator of one point picks out that point's term. -/
private lemma sum_point {n : ℕ} (a : Fin n) (u : Fin n → ℝ) (c : ℝ) :
    ∑ f : Fin n, u f * ((if a = f then (1 : ℝ) else 0) * c) = u a * c := by
  rw [Finset.sum_eq_single a]
  · simp
  · intro f _ hf
    simp [Ne.symm hf]
  · intro h
    exact absurd (Finset.mem_univ a) h

/-- Selecting columns: summing the columns f of u against the selection "slot q names column f" leaves, for each slot,
the column it names. -/
private lemma select_cols {m n : ℕ} (u : Fin n → ℝ) (κ : Fin m → Fin n) (A : Fin m → ℝ) :
    ∑ f : Fin n, u f * ∑ q : Fin m, (if κ q = f then (1 : ℝ) else 0) * A q = ∑ q : Fin m, u (κ q) * A q := by
  calc ∑ f : Fin n, u f * ∑ q : Fin m, (if κ q = f then (1 : ℝ) else 0) * A q
      = ∑ f : Fin n, ∑ q : Fin m, u f * ((if κ q = f then (1 : ℝ) else 0) * A q) :=
        Finset.sum_congr rfl (fun f _ => Finset.mul_sum _ _ _)
    _ = ∑ q : Fin m, ∑ f : Fin n, u f * ((if κ q = f then (1 : ℝ) else 0) * A q) := Finset.sum_comm
    _ = ∑ q : Fin m, u (κ q) * A q := Finset.sum_congr rfl (fun q _ => sum_point _ _ _)

/-- The block-diagonal factor [g = grp p] keeps, for output slot p, only its own group's 15 terms. -/
private lemma block_diag (U : Fin 25 → Fin 15 → ℝ) (w' : Fin 75 → Fin 15 → ℝ) (ind : Fin 75 → ℝ) :
    ∑ g : Fin 25, ∑ k : Fin 15, U g k * ∑ p : Fin 75, ((if g = grp p then (1 : ℝ) else 0) * w' p k) * ind p
      = ∑ p : Fin 75, ind p * ∑ k : Fin 15, U (grp p) k * w' p k := by
  have hp : ∀ p : Fin 75,
      ∑ g : Fin 25, ∑ k : Fin 15, U g k * (((if g = grp p then (1 : ℝ) else 0) * w' p k) * ind p)
        = ind p * ∑ k : Fin 15, U (grp p) k * w' p k := by
    intro p
    rw [Finset.sum_eq_single (grp p)]
    · rw [Finset.mul_sum]
      refine Finset.sum_congr rfl (fun k _ => ?_)
      rw [if_pos rfl]
      ring
    · intro g _ hg
      refine Finset.sum_eq_zero (fun k _ => ?_)
      rw [if_neg hg]
      ring
    · intro h
      exact absurd (Finset.mem_univ _) h
  calc ∑ g : Fin 25, ∑ k : Fin 15, U g k * ∑ p : Fin 75, ((if g = grp p then (1 : ℝ) else 0) * w' p k) * ind p
      = ∑ g : Fin 25, ∑ k : Fin 15, ∑ p : Fin 75,
          U g k * (((if g = grp p then (1 : ℝ) else 0) * w' p k) * ind p) :=
        Finset.sum_congr rfl (fun g _ => Finset.sum_congr rfl (fun k _ => Finset.mul_sum _ _ _))
    _ = ∑ g : Fin 25, ∑ p : Fin 75, ∑ k : Fin 15,
          U g k * (((if g = grp p then (1 : ℝ) else 0) * w' p k) * ind p) :=
        Finset.sum_congr rfl (fun g _ => Finset.sum_comm)
    _ = ∑ p : Fin 75, ∑ g : Fin 25, ∑ k : Fin 15,
          U g k * (((if g = grp p then (1 : ℝ) else 0) * w' p k) * ind p) := Finset.sum_comm
    _ = ∑ p : Fin 75, ind p * ∑ k : Fin 15, U (grp p) k * w' p k := Finset.sum_congr rfl (fun p _ => hp p)

/-- The identity over the reals.  Selecting the gathered columns (the sum over f collapses to the column K names at
slot q), re-indexing the slots q as pairs (g, k), and collapsing the block-diagonal factor [g = grp p] leaves, for
each output slot p, the indicator that p wins times the slot's dot product; adding the bias term gives "slot value if
p wins, else zero". -/
private lemma real_identity (u : Fin 160 → ℝ) (w : Fin 3 → Fin 15 → ℝ) (c : Fin 3 → ℝ)
    (Kn : Fin 25 → Fin 15 → Fin 160) (win : Fin 75 → Prop) [DecidablePred win] :
    (∑ f : Fin 160, u f
        * (∑ q : Fin 375, (if Kn (qgrp q) (qpos q) = f then (1 : ℝ) else 0)
            * ∑ p : Fin 75, ((if qgrp q = grp p then (1 : ℝ) else 0) * w (cls p) (qpos q))
                * (if win p then (1 : ℝ) else 0)))
      + ∑ p : Fin 75, c (cls p) * (if win p then (1 : ℝ) else 0)
    = ∑ p : Fin 75, if win p then (∑ k : Fin 15, u (Kn (grp p) k) * w (cls p) k) + c (cls p) else 0 := by
  rw [select_cols u (fun q => Kn (qgrp q) (qpos q))
        (fun q => ∑ p : Fin 75, ((if qgrp q = grp p then (1 : ℝ) else 0) * w (cls p) (qpos q))
                * (if win p then (1 : ℝ) else 0)),
      sum_slots (fun g k => u (Kn g k)
            * ∑ p : Fin 75, ((if g = grp p then (1 : ℝ) else 0) * w (cls p) k)
                * (if win p then (1 : ℝ) else 0)),
      block_diag (fun g k => u (Kn g k)) (fun p k => w (cls p) k) (fun p => if win p then (1 : ℝ) else 0),
      ← Finset.sum_add_distrib]
  refine Finset.sum_congr rfl (fun p _ => ?_)
  split_ifs <;> simp

theorem fused_eq_outAt (x : SX.Idx → EReal) (W : SW.Idx → EReal) (b : SB.Idx → EReal)
    (Kn : Fin 25 → Fin 15 → Fin 160) (Vn : Fin 75 → Fin 75)
    (hx : Finite x) (hW : Finite W) (hb : Finite b) (r : Fin 262144) (j : Fin 75) :
    (∑ f : Fin 160, x (ix2 r f)
        * (∑ q : Fin 375, (if Kn (qgrp q) (qpos q) = f then (1 : EReal) else 0)
            * ∑ p : Fin 75, ((if qgrp q = grp p then (1 : EReal) else 0) * W (ix2 (cls p) (qpos q)))
                * (if wins Vn p j then (1 : EReal) else 0)))
      + ∑ p : Fin 75, b (ix1 (cls p)) * (if wins Vn p j then (1 : EReal) else 0)
    = outAt x W b Kn Vn r j := by
  choose xr hxr using hx
  choose Wr hWr using hW
  choose br hbr using hb
  unfold outAt slotVal
  simp only [hxr, hWr, hbr, coe_ind, ← EReal.coe_mul, ← coe_sum, ← EReal.coe_add, ← coe_ite_zero]
  exact congrArg Real.toEReal
    (real_identity (fun f => xr (ix2 r f)) (fun c k => Wr (ix2 c k)) (fun c => br (ix1 c)) Kn
      (fun p => wins Vn p j))

end Cert.Algebra

end
-- ==== Proof.KernelOut.lean ====
/-
  The kernel's output array is the specification's output: the array after the run is the matrix product of x with the
  fused weight plus the fused bias row (KernelValue), the two small operands are the host-side terms of the launch's W, b,
  K and V (HostVals), read entry by entry as sums against the last-write-wins scatter matrix (FusedApply, LastMat), and
  that double sum collapses to the specification under finiteness of x, W and b (Algebra).
-/
import proofs.«420357_j73778948210890_3_alg».proof.Proof.KernelValue
import proofs.«420357_j73778948210890_3_alg».proof.Proof.HostVals
import proofs.«420357_j73778948210890_3_alg».proof.Proof.LastMat
import proofs.«420357_j73778948210890_3_alg».proof.Proof.FusedApply
import proofs.«420357_j73778948210890_3_alg».proof.Proof.Algebra

noncomputable section

namespace Cert.KernelIdeal.KernelOut

open Cert.KernelIdeal Cert.KernelIdeal.Gen Cert.KernelIdeal.HostTerms Cert.KernelIdeal.KernelValue Cert.KernelIdeal.HostVals
open Idealize.ShloMosaic Idealize.ShloMosaic.TcCoe Idealize.SL.Sem Idealize.ShloMosaic.ValueIdx Cert.Spec

variable (m : (ℓ : Loc nD τ sig) → Buf (Elt Ideal) ℓ)

/-- `outOf` of the fused weight and bias is the specification's output. -/
theorem outOf_fused (x : FVec Ideal S262144x160 .f32) (W : FVec Ideal S3x15 .f32) (b : FVec Ideal S3 .f32)
    (K : IVec S25x15 32) (V : IVec S25x3 32) (Kn : Fin 25 → Fin 15 → Fin 160) (Vn : Fin 75 → Fin 75)
    (hK : KIs K Kn) (hV : VIs V Vn) (hx : Finite x) (hW : Finite W) (hb : Finite b) :
    outOf x (fusedM (F := Ideal) W K (lastMat (F := Ideal) V)) (fusedB (F := Ideal) b (lastMat (F := Ideal) V))
      = Cert.Spec.out x W b Kn Vn := by
  funext i
  unfold outOf Cert.Spec.out
  rw [fusedB_apply]
  simp only [fusedM_apply W K _ Kn hK, lastMat_apply V Vn hV]
  exact Cert.Algebra.fused_eq_outAt x W b Kn Vn hx hW hb _ _

/-- The output array after the kernel's run. -/
theorem kernel_out (c : Dev nD) (Kn : Fin 25 → Fin 15 → Fin 160) (Vn : Fin 75 → Fin 75)
    (hK : KIs (m ((c : Thread nD τ).loc main_arg3)) Kn) (hV : VIs (m ((c : Thread nD τ).loc main_arg4)) Vn)
    (hx : Finite (m ((c : Thread nD τ).loc main_arg0) : S262144x160.Idx → EReal))
    (hW : Finite (m ((c : Thread nD τ).loc main_arg1) : S3x15.Idx → EReal))
    (hb : Finite (m ((c : Thread nD τ).loc main_arg2) : S3.Idx → EReal)) :
    (dats m 0 c).arrAt 3 cfg0.N
      = Cert.Spec.out (m ((c : Thread nD τ).loc main_arg0)) (m ((c : Thread nD τ).loc main_arg1)) (m ((c : Thread nD τ).loc main_arg2)) Kn Vn := by
  rw [final3, V_main_arg0, V_weight, V_bias]
  exact outOf_fused _ _ _ _ _ Kn Vn hK hV hx hW hb

end Cert.KernelIdeal.KernelOut

end
-- ==== Proof.lean ====
/-
  The certificate.  Both programs compute, for every row r and output column j, the value of the LAST of the 75
  (group, class) slots whose scatter target is j — the group's 15 gathered inputs against the class's weight row plus
  its bias — and 0 where no slot targets j (Spec).  The reference does it literally: a gather, a contraction, a
  set-scatter whose later updates overwrite earlier ones.  The kernel folds gather, linear map and scatter into one
  160 x 75 matrix and one bias row on the host (a selection matrix, a block-diagonal weight, a last-write-wins 0/1
  matrix) and runs a single blocked matrix product.  The two agree when every float is finite (the kernel multiplies
  inputs by exact zeros and regroups sums) and every table entry is a valid index (outside its range the reference
  wraps or clamps an index where the kernel's comparison simply finds no match): that is the precondition.
-/
import proofs.«420357_j73778948210890_3_alg».proof.Defs
import proofs.«420357_j73778948210890_3_alg».proof.Proof.Gen.Kernel
import proofs.«420357_j73778948210890_3_alg».proof.Proof.Gen.Kernel.Skeleton
import proofs.«420357_j73778948210890_3_alg».proof.Proof.Gen.Kernel.Launch
import proofs.«420357_j73778948210890_3_alg».proof.Proof.Gen.Kernel.Points
import proofs.«420357_j73778948210890_3_alg».proof.Proof.Gen.Kernel.Frame
import proofs.«420357_j73778948210890_3_alg».proof.Proof.Gen.KernelIdeal
import proofs.«420357_j73778948210890_3_alg».proof.Proof.Gen.KernelIdeal.Skeleton
import proofs.«420357_j73778948210890_3_alg».proof.Proof.Gen.KernelIdeal.Launch
import proofs.«420357_j73778948210890_3_alg».proof.Proof.Gen.KernelIdeal.Points
import proofs.«420357_j73778948210890_3_alg».proof.Proof.Gen.KernelIdeal.Frame
import proofs.«420357_j73778948210890_3_alg».proof.Proof.Gen.ReferenceIdeal
import proofs.«420357_j73778948210890_3_alg».proof.Proof.Gen.Pre_finite_inputs
import proofs.«420357_j73778948210890_3_alg».proof.Proof.Gen.KernelIdeal.Value
import proofs.«420357_j73778948210890_3_alg».proof.Proof.Gen.ReferenceIdeal.Run
import proofs.«420357_j73778948210890_3_alg».proof.Proof.Gen.ReferenceIdeal.Read
import proofs.«420357_j73778948210890_3_alg».proof.Proof.PreFacts
import proofs.«420357_j73778948210890_3_alg».proof.Proof.RefValue
import proofs.«420357_j73778948210890_3_alg».proof.Proof.KernelOut
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition both idealized programs end with the specification's output of the (shared) arguments,
    the tables read as the numbers the precondition says they are. -/
theorem algebraic : Cert.algebraic_KernelIdeal_ReferenceIdeal := by
  intro m ρ m' ρ' hpre hagree
  have hf := fun c => Cert.PreFacts.pre_facts _ _ _ _ _ (hpre c)
  choose hx hW hb hKn hVn using hf
  choose Kn hK using hKn
  choose Vn hV using hVn
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (Kn c) (Vn c), ?_, ?_⟩
  · exact (θ_run Cert.KernelIdeal.defs _ _).mono
      (fun r h c => ⟨(h c).1.trans (Cert.KernelIdeal.KernelOut.kernel_out m c (Kn c) (Vn c) (hK c) (hV c) (hx c) (hW c) (hb c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v20_eq _ _ _ _ _).trans
      (Cert.RefValue.ref_eq_out _ _ _ _ _ (Kn c) (Vn c) (hK c) (hV c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
